-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg4 : FVec F S64x4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x64 .f32) (main_arg3 : FVec F S64 .f32) (main_arg4 : FVec F S64x4096 .f32) (main_arg5 : IVec S64 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S1x64 : Shape := ⟨2, ![1, 64]⟩
abbrev S1024x1024 : Shape := ⟨2, ![1024, 1024]⟩
abbrev S1024x64 : Shape := ⟨2, ![1024, 64]⟩
abbrev S64x1024 : Shape := ⟨2, ![64, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S64, .i1⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S4096x4096, .bf16⟩
  | .hbm, ⟨10, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S64x1024, .f32⟩
  | .local _ .vmem, ⟨5, _⟩ => ⟨S64x1024, .f32⟩
  | .local _ .vmem, ⟨6, _⟩ => ⟨S1x64, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x64_S1024x64_0_0 : ∀ a, (![0, 0] : Fin 2 → Nat) a + S1024x64.size a ≤ S1024x64.size a
  h_S1024x64 : 0 < S1024x64.numel
  broadcasts_S1x64_S1024x64 : S1x64.Broadcasts S1024x64
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  dot_S1024x64_S64x1024_S1024x1024_1_0_0_1_n_n_wf : DotDims.WF S1024x64 S64x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x4096.size a
  hwx0_2 : ∀ i : grid0.Coords, EltTy.bits .f32 = 32 ∨ (Rect.block (s := S64x4096) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S1x64 : Shape := ⟨2, ![1, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S64, .i1⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x4096 : S_.BroadcastsInDim S4096x4096 (![] : Fin 0 → Fin S4096x4096.rank)
  transposes_S4096x4096_S4096x4096_1_0 : S4096x4096.Transposes [1, 0] S4096x4096
  dot_S4096x64_S64x4096_S4096x4096_1_0_0_1_n_n_wf : DotDims.WF S4096x64 S64x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Data0.lean ====
/-
  The first kernel region (the merge of the low-rank update into the dense weight), its proof data.
  At grid point (j, k) the body reads four blocks — the weight's block (j, k), the rows j of the left
  factor, the columns k of the right factor, the scaled spectrum — and stores one block: the weight's block
  plus twice the product of the scaled left rows with the right columns.  Nothing is carried between points.
-/
import proofs.«138301_j20289425506440_1_alg».proof.Proof.Gen.Kernel.Launch
import proofs.«138301_j20289425506440_1_alg».proof.Proof.Gen.Kernel.Skeleton
import proofs.«138301_j20289425506440_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block the body stores at point `t`: the body's one payload of the four input blocks at `t`
    (spectrum, left rows, right columns, weight block). -/
def wblk0 (c : Dev nD) (t : Fin cfg0.N) : Vec F S1024x1024 .bf16 :=
  k0_pay1 (iblk0 V c 3 t) (iblk0 V c 1 t) (iblk0 V c 2 t) (iblk0 V c 0 t)

/-- The proof data: the arrays as the region finds them; after the body each input's buffer holds its block and the
    output's the stored block; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => wblk0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = wblk0 V c t := by dsimp only [dat0]

end

end Cert.Kernel.Hand

end
-- ==== Proof.K.Region0.lean ====
/-
  The first kernel region: its body meets its proof data at every grid point — it loads its four input blocks whole,
  computes the merged block and stores it whole; nothing else is touched.
-/
import proofs.«138301_j20289425506440_1_alg».proof.Proof.K.Data0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets, however spelt. -/
theorem hz2 : (![0, 0] : Fin 2 → Nat) = fun _ => 0 := funext fun a => by fin_cases a <;> rfl

section
variable (V : (c : Dev nD) → (b : Ref sig .tc) → Buf (Elt F) ((c : Thread nD τ).loc b))

/-! ## Each input's staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

end

/-! ## The body's triple -/

abbrev rW : Rect S1024x1024 := Rect.unit (s := S1024x1024) ![0, 0] S1024x1024.size inb_S1024x1024_S1024x1024_0_0

/-- The one store covers the output block. -/
theorem cover0_4 (p0 : Vec F S1024x1024 .bf16) (y : S1024x1024.Idx) :
    ∃ pc ∈ ([⟨rW, p0⟩] : List (View.Piece (Elt F) S1024x1024 .bf16)), y ∈ pc.1.set :=
  ⟨_, List.mem_singleton_self _, View.mem_set_unit_zero hz2 inb_S1024x1024_S1024x1024_0_0 y⟩

set_option maxHeartbeats 1000000 in
/-- On whole staging memrefs, the inputs' at contents `x·` and the output's at anything, the body runs to the
    continuation holding the inputs' as they were and the output's at the body's payload of them. -/
theorem sound_kernel0 (c : Dev nD) (E : Set ℕ) (i : grid0.Coords)
    (arg2 : Memref sig .tc .vmem S1024x1024 .f32) (harg2 : arg2.IsWhole) (arg3 : Memref sig .tc .vmem S1024x64 .f32) (harg3 : arg3.IsWhole)
    (arg4 : Memref sig .tc .vmem S64x1024 .f32) (harg4 : arg4.IsWhole) (arg5 : Memref sig .tc .vmem S1x64 .f32) (harg5 : arg5.IsWhole)
    (arg6 : Memref sig .tc .vmem S1024x1024 .bf16) (harg6 : arg6.IsWhole)
    (x0 : Vec F S1024x1024 .f32) (x1 : Vec F S1024x64 .f32) (x2 : Vec F S64x1024 .f32) (x3 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 x3 x1 x2 x0)) -∗ K ⟨⟩))
      ⊢ wp frame (wpE (defs₀ (F := F)) Variants.none c none) E (cc0__weff_kernel i arg2 harg2 arg3 harg3 arg4 harg4 arg5 harg5 arg6 harg6) K := by
  simp only [cc0__weff_kernel_eq_skeleton]; unfold cc0__weff_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover0_4 _), View.canon_unit_zero hz2]
  simp only [View.readAt_eq_ld, View.ld_unit_zero (S := S1024x1024) hz2, View.ld_unit_zero (S := S1024x64) hz2,
    View.ld_unit_zero (S := S64x1024) hz2, View.ld_unit_zero (S := S1x64) hz2]

section
variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold wblk0
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Data1.lean ====
/-
  The second kernel region (the product of the activations with the merged weight, transposed), its proof data.
  The grid is (i, j, k) with k innermost: at k = 0 the scratch accumulator is zeroed, at every point the product of the
  activations' block (i, k) with the merged weight's block (j, k), contracted over the shared axis, is added to it,
  and at k = 3 the accumulator is stored into the output's block (i, j).  The accumulator is carried between
  points: after point `n` it holds the partial sum over the k-blocks met since the last reset.
-/
import proofs.«138301_j20289425506440_1_alg».proof.Proof.Gen.Kernel.Launch
import proofs.«138301_j20289425506440_1_alg».proof.Proof.Gen.Kernel.Skeleton
import proofs.«138301_j20289425506440_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point with k = 0 the zero block plus that point's product, elsewhere what
    the point before left plus that point's product. -/
def accAt1 (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn =>
    if (n + 1) % 4 = 0 then k1_pay2 (iblk1 V c 0 ⟨n + 1, hn⟩) (k1_pay1 (F := F)) (iblk1 V c 1 ⟨n + 1, hn⟩)
    else k1_pay2 (iblk1 V c 0 ⟨n + 1, hn⟩) (accAt1 c n (Nat.lt_of_succ_lt hn)) (iblk1 V c 1 ⟨n + 1, hn⟩)

theorem accAt1_reset (c : Dev nD) (t : Fin cfg1.N) (h : t.val % 4 = 0) :
    accAt1 V c t.val t.isLt = k1_pay2 (iblk1 V c 0 t) (k1_pay1 (F := F)) (iblk1 V c 1 t) := by
  obtain ⟨n, hn⟩ := t
  cases n with
  | zero => rfl
  | succ n => exact if_pos h

theorem accAt1_step (c : Dev nD) (t : Fin cfg1.N) (h : ¬ t.val % 4 = 0) :
    accAt1 V c t.val t.isLt
      = k1_pay2 (iblk1 V c 0 t) (accAt1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-- The kernel's scratch accumulator as a whole memref. -/
abbrev scM1 : Memref sig .tc .vmem S1024x1024 .f32 := Memref.whole cc1_scratch0

/-- The region invariant before position `n`: before the first point every scoped buffer that is no staging buffer of
    this region at some contents and the generator register at some state; afterwards the same with the accumulator at
    what the point before left in it. -/
def PhiS1 (c : Dev nD) : (n : ℕ) → n ≤ cfg1.N → sProp 𝕄
  | 0, _ => Pipeline.ΦA spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

/-- The proof data: the arrays as the region finds them; after the body each input's buffer holds its block and the
    output's the accumulator (consulted only at the points with k = 3, where it is stored and written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

end

end Cert.Kernel.Hand

end
-- ==== Proof.K.Region1.lean ====
/-
  The second kernel region: its body meets its proof data at every grid point.  A point with k = 0 zeroes the
  accumulator and adds the point's product; a point with k = 1 or 2 adds the point's product onto what the point before
  left; a point with k = 3 does the same and stores the accumulator into the output's block.  The accumulator's contents
  ride in the region invariant from one point to the next.
-/
import proofs.«138301_j20289425506440_1_alg».proof.Proof.K.Data1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-block access, however they are spelt. -/
theorem r1_hz : (![0, 0] : Fin 2 → Nat) = fun _ => 0 := by
  funext a; fin_cases a <;> rfl

/-- A store through the whole-block rectangle at zero offsets, made last, reads back as its payload, whatever the
    buffer held and whatever was stored before: the one piece covers every index. -/
theorem r1_read_last {sg : RefSig} {κ : Kind} {sp : Space} {Val : EltTy → Type} [∀ e, Nonempty (Val e)] {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The condition of the body's first conditional: the innermost coordinate is zero. -/
abbrev r1_cond0 (i : grid1.Coords) : Prop :=
  (Scalar.cmpi .ne (Scalar.extui (Scalar.cmpi .eq (BitVec.ofNat 32 (i 2).val) 0#32)) 0#32) = 1#1
/-- It holds at the points ≡ 0 (mod 4). -/
theorem r1_hcond0 : ∀ t : Fin cfg1.N, r1_cond0 (grid1.coords t) ↔ t.val % 4 = 0 :=
  (by decide +kernel : ∀ t : Fin grid1.N, r1_cond0 (grid1.coords t) ↔ t.val % 4 = 0)

/-- The condition of the body's second conditional: the innermost coordinate is three. -/
abbrev r1_cond1 (i : grid1.Coords) : Prop := k1_cond2 i = 1#1
/-- It holds at the points ≡ 3 (mod 4). -/
theorem r1_hcond1 : ∀ t : Fin cfg1.N, r1_cond1 (grid1.coords t) ↔ t.val % 4 = 3 :=
  (by decide +kernel : ∀ t : Fin grid1.N, r1_cond1 (grid1.coords t) ↔ t.val % 4 = 3)

/-- The inputs' windows are never idle. -/
theorem r1_live0 : ∀ t : Fin cfg1.N, cfg1.idle 0 (grid1.coords t) = false := by decide +kernel
theorem r1_live1 : ∀ t : Fin cfg1.N, cfg1.idle 1 (grid1.coords t) = false := by decide +kernel
/-- The output's window is idle, and not written back, where the innermost coordinate is not three; live where it is. -/
theorem r1_idle2 : ∀ t : Fin cfg1.N, ¬r1_cond1 (grid1.coords t) → cfg1.idle 2 (grid1.coords t) = true := by decide +kernel
theorem r1_noFlush2 : ∀ t : Fin cfg1.N, ¬r1_cond1 (grid1.coords t) → (cfg1.win 2).flush t = false := by decide +kernel
theorem r1_live2 : ∀ t : Fin cfg1.N, r1_cond1 (grid1.coords t) → cfg1.idle 2 (grid1.coords t) = false := by decide +kernel

section Triples

variable (c : Dev nD) (E : Set ℕ) (i : grid1.Coords)
  (arg3 : Memref sig .tc .vmem S1024x1024 .f32) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)

set_option maxHeartbeats 1000000 in
/-- The body where the innermost coordinate is zero: the accumulator, found at anything, is zeroed and the product
    of the two input blocks added to it; the output's buffer is not touched. -/
theorem r1_kernel_A (hc0 : r1_cond0 i) (hc1 : ¬r1_cond1 i)
    (x : Vec F S1024x1024 .f32) (w : Vec F S1024x1024 .bf16) (K : PUnit → sProp 𝕄) :
    iprop(owns (c : Thread nD τ) arg3 fullShare x ∗ owns (c : Thread nD τ) arg4 fullShare w ∗ (∃ d, owns (c : Thread nD τ) arg6 fullShare d)
        ∗ (iprop(owns (c : Thread nD τ) arg3 fullShare x ∗ owns (c : Thread nD τ) arg4 fullShare w
            ∗ owns (c : Thread nD τ) arg6 fullShare (k1_pay2 x (k1_pay1 (F := F)) w)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  refine (r1_read_last (S := S1024x1024) _ _ r1_hz _ _ _).trans ?_
  simp only [View.readAt_eq_ld, harg3.read_unread, harg4.read_unread,
    View.readCov_unit_zero (S := S1024x1024) _ r1_hz, View.ld_unit_zero (S := S1024x1024) r1_hz]

set_option maxHeartbeats 1000000 in
/-- The body where the innermost coordinate is one or two: the product of the two input blocks is added to the
    accumulator; the output's buffer is not touched. -/
theorem r1_kernel_B (hc0 : ¬r1_cond0 i) (hc1 : ¬r1_cond1 i)
    (x : Vec F S1024x1024 .f32) (w : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg6 fullShare s
        ∗ (iprop(owns (c : Thread nD τ) arg3 fullShare x ∗ owns (c : Thread nD τ) arg4 fullShare w
            ∗ owns (c : Thread nD τ) arg6 fullShare (k1_pay2 x s w)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  refine (r1_read_last (S := S1024x1024) _ _ r1_hz _ _ _).trans ?_
  simp only [View.readAt_eq_ld, harg3.read_unread, harg4.read_unread, harg6.read_unread,
    View.readCov_unit_zero (S := S1024x1024) _ r1_hz, View.ld_unit_zero (S := S1024x1024) r1_hz]

set_option maxHeartbeats 1000000 in
/-- The body where the innermost coordinate is three: the product of the two input blocks is added to the
    accumulator, and the accumulator is stored into the output's buffer, found at anything. -/
theorem r1_kernel_C (hc0 : ¬r1_cond0 i) (hc1 : r1_cond1 i)
    (x : Vec F S1024x1024 .f32) (w : Vec F S1024x1024 .bf16) (s : Vec F S1024x1024 .f32) (K : PUnit → sProp 𝕄) :
    iprop(owns (c : Thread nD τ) arg3 fullShare x ∗ owns (c : Thread nD τ) arg4 fullShare w ∗ (∃ d, owns (c : Thread nD τ) arg5 fullShare d)
        ∗ owns (c : Thread nD τ) arg6 fullShare s
        ∗ (iprop(owns (c : Thread nD τ) arg3 fullShare x ∗ owns (c : Thread nD τ) arg4 fullShare w
            ∗ owns (c : Thread nD τ) arg5 fullShare (k1_pay2 x s w) ∗ owns (c : Thread nD τ) arg6 fullShare (k1_pay2 x s w)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    refine (r1_read_last (S := S1024x1024) _ _ r1_hz _ _ _).trans ?_
    simp only [View.readAt_eq_ld, harg3.read_unread, harg4.read_unread, harg6.read_unread,
    View.readCov_unit_zero (S := S1024x1024) _ r1_hz, View.ld_unit_zero (S := S1024x1024) r1_hz]
  iexists _; isplitr
  swap; · iexact HS
  ipureintro
  sl_unfold_run_names
  refine (r1_read_last (S := S1024x1024) _ _ r1_hz _ _ _).trans ?_
  simp only [View.readAt_eq_ld, harg3.read_unread, harg4.read_unread, harg6.read_unread,
    View.readCov_unit_zero (S := S1024x1024) _ r1_hz, View.ld_unit_zero (S := S1024x1024) r1_hz]

end Triples

section
variable (V : (c : Dev nD) → (b : Ref sig .tc) → Buf (Elt F) ((c : Thread nD τ).loc b))

/-! ## The invariant, position by position -/

theorem r1_PhiS_zero (c : Dev nD) (n : ℕ) (h : n ≤ cfg1.N) (hz : n = 0) : PhiS1 V c n h = Pipeline.ΦA spec1 c := by
  subst hz; rfl

/-- After point `n`: the accumulator at that point's contents. -/
theorem r1_PhiS_succ (c : Dev nD) (n : ℕ) (hn : n < cfg1.N) :
    PhiS1 V c (n + 1) hn = iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r)) := rfl

/-- Before a point that is not the first: the accumulator at what the point before left. -/
theorem r1_PhiS_pos (c : Dev nD) (n : ℕ) (h : n ≤ cfg1.N) (hz : n ≠ 0) :
    PhiS1 V c n h = iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The invariant at a point's start, restated at the point's position. -/
theorem r1_PhiS_castSucc (c : Dev nD) (t : Fin cfg1.N) :
    (dat1 V c).Φ t.castSucc = PhiS1 V c t.val (Nat.le_of_lt t.isLt) := by
  dsimp only [dat1]; simp only [Fin.coe_castSucc]

/-- What the launch hands the region, with the accumulator set apart from the other scoped buffers and owned as a
    whole memref at some contents. -/
theorem r1_PhiA_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, scM1, owns_whole]; try rfl

/-! ## The inputs' staging buffers hold their blocks -/

theorem r1_before0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem r1_before1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem r1_before0 (c : Dev nD) (t : Fin cfg1.N) (d) : (dat1 V c).before 0 t d = iblk1 V c 0 t :=
  r1_before0_of V (dat1 V c) (A_eq1 V c 0) (after1_0 V c) t d
theorem r1_before1 (c : Dev nD) (t : Fin cfg1.N) (d) : (dat1 V c).before 1 t d = iblk1 V c 1 t :=
  r1_before1_of V (dat1 V c) (A_eq1 V c 1) (after1_1 V c) t d

/-! ## The body obligation, at a generic point -/

/-- What the body is called with at point `t`, the windows one by one, -/
def r1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def r1_bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point.  The inputs' buffers hold their blocks; the innermost coordinate says which of the three
    cases the point is in.  The invariant hands the body the accumulator — at anything before the first point, at what
    the point before left afterwards — and takes it back at this point's contents; the other scoped buffers, the
    generator register and what the core owes pass through untouched; the output's buffer is handed back as found
    where the innermost coordinate is not three. -/
theorem r1_sound_body (c : Dev nD) (t : Fin cfg1.N) :
    r1_bodyPre V c t ⊢ wp frame (wpE (defs₀ (F := F)) Variants.none c none) Set.univ (bodyAt1 t) (fun _ => r1_bodyPost V c t) := by
  unfold r1_bodyPre r1_bodyPost bodyAt1
  simp only [r1_before0, r1_before1]
  rw [show (dat1 V c).owesAt () t.succ = (dat1 V c).owesAt () t.castSucc from rfl]
  rw [show (dat1 V c).Φ t.succ = PhiS1 V c (t.val + 1) t.isLt from rfl, r1_PhiS_succ]
  rw [show (dat1 V c).leavesExact 0 t = owns (c : Thread nD τ) (st1_0 t) fullShare ((dat1 V c).after 0 t) from by
    unfold Dat.leavesExact; rw [r1_live0 t], after1_0]
  rw [show (dat1 V c).leavesExact 1 t = owns (c : Thread nD τ) (st1_1 t) fullShare ((dat1 V c).after 1 t) from by
    unfold Dat.leavesExact; rw [r1_live1 t], after1_1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (r1_idle2 t (fun h => h1 ((r1_hcond1 t).mp h))) (r1_noFlush2 t (fun h => h1 ((r1_hcond1 t).mp h)))]
    rw [accAt1_reset V c t h0]
    by_cases hz : t.val = 0
    · rw [r1_PhiS_castSucc V c t, r1_PhiS_zero V c _ _ hz, r1_PhiA_eq]
      iintro ⟨⟨⟨HS, HR⟩, Hg⟩, Ho, ⟨%d0, H0⟩, ⟨%d1, H1⟩, H2⟩
      iapply (r1_kernel_A c Set.univ (grid1.coords t) _ _ _ _ _ _ _ _ ((r1_hcond0 t).mpr h0) (fun h => h1 ((r1_hcond1 t).mp h)) (iblk1 V c 0 t) (iblk1 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [r1_PhiS_castSucc V c t, r1_PhiS_pos V c _ _ hz]
      iintro ⟨⟨HS, HR, Hg⟩, Ho, ⟨%d0, H0⟩, ⟨%d1, H1⟩, H2⟩
      iapply (r1_kernel_A c Set.univ (grid1.coords t) _ _ _ _ _ _ _ _ ((r1_hcond0 t).mpr h0) (fun h => h1 ((r1_hcond1 t).mp h)) (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · have hz : t.val ≠ 0 := fun e => h0 (by rw [e])
    rw [accAt1_step V c t h0]
    rw [r1_PhiS_castSucc V c t, r1_PhiS_pos V c _ _ hz]
    by_cases h1 : t.val % 4 = 3
    · rw [show (dat1 V c).leavesExact 2 t = owns (c : Thread nD τ) (st1_2 t) fullShare ((dat1 V c).after 2 t) from by
        unfold Dat.leavesExact; rw [r1_live2 t ((r1_hcond1 t).mpr h1)], after1_2]
      rw [accAt1_step V c t h0]
      iintro ⟨⟨HS, HR, Hg⟩, Ho, ⟨%d0, H0⟩, ⟨%d1, H1⟩, ⟨%d2, H2⟩⟩
      iapply (r1_kernel_C c Set.univ (grid1.coords t) _ _ _ _ _ _ _ _ (fun h => h0 ((r1_hcond0 t).mp h)) ((r1_hcond1 t).mpr h1) (iblk1 V c 0 t) (iblk1 V c 1 t)
        (accAt1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (r1_idle2 t (fun h => h1 ((r1_hcond1 t).mp h))) (r1_noFlush2 t (fun h => h1 ((r1_hcond1 t).mp h)))]
      iintro ⟨⟨HS, HR, Hg⟩, Ho, ⟨%d0, H0⟩, ⟨%d1, H1⟩, H2⟩
      iapply (r1_kernel_B c Set.univ (grid1.coords t) _ _ _ _ _ _ _ _ (fun h => h0 ((r1_hcond0 t).mp h)) (fun h => h1 ((r1_hcond1 t).mp h)) (iblk1 V c 0 t) (iblk1 V c 1 t)
        (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation of the second region, at every point. -/
theorem body_obligation1 (c : Dev nD) : BodyObligation (dat1 (F := F) V c) (defs₀ (F := F)) Variants.none () Set.univ := fun t => by
  rw [bigSep_W1, bigSep_W1]
  exact r1_sound_body V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, r1_PhiS_zero V c 0 _ rfl]
  try exact Idealize.SL.BI.Entails.refl _

/-- After any point but the first the invariant gives the scoped rest back: the accumulator's contents are forgotten. -/
theorem r1_Phi_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, r1_PhiS_pos V c _ _ ht, r1_PhiA_eq]
  iintro ⟨HS, HR, Hg⟩
  isplitl [HS HR]
  · isplitl [HS]; · iexists _; iexact HS
    iexact HR
  iexact Hg

/-- After the last point the invariant gives the scoped rest back: the accumulator's contents are forgotten. -/
theorem hout1 (c : Dev nD) : (dat1 V c).Φ (Fin.last cfg1.N) ⊢ (Pipeline.ΦA spec1 c : sProp 𝕄) :=
  r1_Phi_out V c _ (by rw [Fin.val_last]; have : cfg1.N = 128 := N_1; omega)

end

end Cert.Kernel.Hand

end
-- ==== Proof.K.Run.lean ====
/-
  The whole run: the three host operations that make the active spectrum, the first region, the second region, from the
  launch to the return.  Between two items every unscoped buffer is held at named contents: the launch memory, then what
  the host operations leave, then the first region's arrays at what its write-backs leave (the merged weight), then the
  second region's (the result).  Every final memory holds each unscoped buffer at the last of these; read at the
  arguments it is the launch memory, read at the result it is the second region's folded write-backs.
-/
import proofs.«138301_j20289425506440_1_alg».proof.Proof.K.Region0
import proofs.«138301_j20289425506440_1_alg».proof.Proof.K.Region1
import proofs.«138301_j20289425506440_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, the result at the second region's write-backs -/

/-- The host operations write only their own three results. -/
theorem W1_of (c : Dev nD) (r : Ref sig .tc) (h : r ∉ hostOps0_W) : W1 m c (Proc.devRef .tc r) = m ((c : Thread nD τ).loc r) :=
  V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (E2 m) c).arrAt_in 0 rfl _).trans (A_eq1 (E2 m) c 0))
    _ = W1 m c (Proc.devRef .tc main_arg0) := W2_of_ne m c main_arg0 (by decide)
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (E1 m) c).arrAt_in 0 rfl _).trans (A_eq0 (E1 m) c 0))
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (E1 m) c).arrAt_in 1 rfl _).trans (A_eq0 (E1 m) c 1))
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 2).trans (((dat0 (E1 m) c).arrAt_in 2 rfl _).trans (A_eq0 (E1 m) c 2))
    _ = m ((c : Thread nD τ).loc main_arg4) := W1_of m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of m c main_arg5 (by decide)
/-- The result buffer ends at the second region's folded write-backs. -/
theorem W3_main_v4 (c : Dev nD) : W3 m c (Proc.devRef .tc main_v4) = (dat1 (E2 m) c).arrAt 2 cfg1.N := W3_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The host operations as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

/-- The second region's invariant before its first point, from the scoped rest and the generator register; -/
theorem hin1' (c : Dev nD) :
    (iprop(Pipeline.scopedRest (Ix := Unit) (Name := ℕ) (U := UR sig nD τ) (Lvl := ℕ) (Val := Elt F) spec1 c ∗ ∃ r, prngReg c r) : sProp 𝕄)
      ⊢ (dat1 (E2 m) c).Φ 0 := by
  have h := hin1 (E2 m) c; unfold Pipeline.ΦA at h; exact h
/-- and after its last point, back to them. -/
theorem hout1' (c : Dev nD) :
    (dat1 (E2 m) c).Φ (Fin.last cfg1.N)
      ⊢ (iprop(Pipeline.scopedRest (Ix := Unit) (Name := ℕ) (U := UR sig nD τ) (Lvl := ℕ) (Val := Elt F) spec1 c ∗ ∃ r, prngReg c r) : sProp 𝕄) := by
  have h := hout1 (E2 m) c; unfold Pipeline.ΦA at h; exact h

set_option backward.isDefEq.respectTransparency.types false in
/-- The first region over the thread state: entered from every unscoped buffer at `W1`, left at `W2`. Its arrays are
    split out of the unscoped buffers and put back at the exit contents; the generator register goes into the region
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. The region
    invariant takes the generator register and the scoped rest in at the first point and gives them back after the last,
    the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    iintro ⟨Hp, -, Hr⟩
    iapply (hin1' m c)
    isplitl [Hr]; · iexact Hr
    iexact Hp
  hout c := by
    rw [Pipeline.ownSems0_none, show (pdats m 1 c).Φ (Fin.last _) = (dat1 (E2 m) c).Φ (Fin.last cfg1.N) from rfl]
    have hback := hout1' m c
    iintro HΦ
    ihave Hback := hback $$ HΦ
    icases Hback with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg0 m), .region (reg0 m), .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The run with the result named: the result buffer ends at the second region's folded write-backs, the arguments
    as launched. -/
theorem run_value : θ_run defs (onTc (τ := τ) (main (F := F))) ⟨m, fun _ => 0, ρ⟩ (fun r => ∀ c : Dev nD,
      r.2.mem ((c.tc : Thread nD τ).loc main_v4) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4 (by decide))).trans (W3_main_v4 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.Kernel.Hand

end
-- ==== Proof.KI.Data0.lean ====
/-
  The first kernel region (the merge of the low-rank update into the dense weight), its proof data.
  At grid point (j, k) the body reads four blocks — the weight's block (j, k), the rows j of the left
  factor, the columns k of the right factor, the scaled spectrum — and stores one block: the weight's block
  plus twice the product of the scaled left rows with the right columns.  Nothing is carried between points.
-/
import proofs.«138301_j20289425506440_1_alg».proof.Proof.Gen.KernelIdeal.Launch
import proofs.«138301_j20289425506440_1_alg».proof.Proof.Gen.KernelIdeal.Skeleton
import proofs.«138301_j20289425506440_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block the body stores at point `t`: the body's one payload of the four input blocks at `t`
    (spectrum, left rows, right columns, weight block). -/
def wblk0 (c : Dev nD) (t : Fin cfg0.N) : Vec F S1024x1024 .bf16 :=
  k0_pay1 (iblk0 V c 3 t) (iblk0 V c 1 t) (iblk0 V c 2 t) (iblk0 V c 0 t)

/-- The proof data: the arrays as the region finds them; after the body each input's buffer holds its block and the
    output's the stored block; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => wblk0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = wblk0 V c t := by dsimp only [dat0]

end

end Cert.KernelIdeal.Hand

end
-- ==== Proof.KI.Region0.lean ====
/-
  The first kernel region: its body meets its proof data at every grid point — it loads its four input blocks whole,
  computes the merged block and stores it whole; nothing else is touched.
-/
import proofs.«138301_j20289425506440_1_alg».proof.Proof.KI.Data0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem hz2 : (![0, 0] : Fin 2 → Nat) = fun _ => 0 := funext fun a => by fin_cases a <;> rfl

section
variable (V : (c : Dev nD) → (b : Ref sig .tc) → Buf (Elt F) ((c : Thread nD τ).loc b))

/-! ## Each input's staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

end

/-! ## The body's triple -/

abbrev rW : Rect S1024x1024 := Rect.unit (s := S1024x1024) ![0, 0] S1024x1024.size inb_S1024x1024_S1024x1024_0_0

/-- The one store covers the output block. -/
theorem cover0_4 (p0 : Vec F S1024x1024 .bf16) (y : S1024x1024.Idx) :
    ∃ pc ∈ ([⟨rW, p0⟩] : List (View.Piece (Elt F) S1024x1024 .bf16)), y ∈ pc.1.set :=
  ⟨_, List.mem_singleton_self _, View.mem_set_unit_zero hz2 inb_S1024x1024_S1024x1024_0_0 y⟩

set_option maxHeartbeats 1000000 in
/-- On whole staging memrefs, the inputs' at contents `x·` and the output's at anything, the body runs to the
    continuation holding the inputs' as they were and the output's at the body's payload of them. -/
theorem sound_kernel0 (c : Dev nD) (E : Set ℕ) (i : grid0.Coords)
    (arg2 : Memref sig .tc .vmem S1024x1024 .f32) (harg2 : arg2.IsWhole) (arg3 : Memref sig .tc .vmem S1024x64 .f32) (harg3 : arg3.IsWhole)
    (arg4 : Memref sig .tc .vmem S64x1024 .f32) (harg4 : arg4.IsWhole) (arg5 : Memref sig .tc .vmem S1x64 .f32) (harg5 : arg5.IsWhole)
    (arg6 : Memref sig .tc .vmem S1024x1024 .bf16) (harg6 : arg6.IsWhole)
    (x0 : Vec F S1024x1024 .f32) (x1 : Vec F S1024x64 .f32) (x2 : Vec F S64x1024 .f32) (x3 : Vec F S1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay1 x3 x1 x2 x0)) -∗ K ⟨⟩))
      ⊢ wp frame (wpE (defs₀ (F := F)) Variants.none c none) E (cc0__weff_kernel i arg2 harg2 arg3 harg3 arg4 harg4 arg5 harg5 arg6 harg6) K := by
  simp only [cc0__weff_kernel_eq_skeleton]; unfold cc0__weff_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover0_4 _), View.canon_unit_zero hz2]
  simp only [View.readAt_eq_ld, View.ld_unit_zero (S := S1024x1024) hz2, View.ld_unit_zero (S := S1024x64) hz2,
    View.ld_unit_zero (S := S64x1024) hz2, View.ld_unit_zero (S := S1x64) hz2]

section
variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold wblk0
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Data1.lean ====
/-
  The second kernel region (the product of the activations with the merged weight, transposed), its proof data.
  The grid is (i, j, k) with k innermost: at k = 0 the scratch accumulator is zeroed, at every point the product of the
  activations' block (i, k) with the merged weight's block (j, k), contracted over the shared axis, is added to it,
  and at k = 3 the accumulator is stored into the output's block (i, j).  The accumulator is carried between
  points: after point `n` it holds the partial sum over the k-blocks met since the last reset.
-/
import proofs.«138301_j20289425506440_1_alg».proof.Proof.Gen.KernelIdeal.Launch
import proofs.«138301_j20289425506440_1_alg».proof.Proof.Gen.KernelIdeal.Skeleton
import proofs.«138301_j20289425506440_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point with k = 0 the zero block plus that point's product, elsewhere what
    the point before left plus that point's product. -/
def accAt1 (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn =>
    if (n + 1) % 4 = 0 then k1_pay2 (iblk1 V c 0 ⟨n + 1, hn⟩) (k1_pay1 (F := F)) (iblk1 V c 1 ⟨n + 1, hn⟩)
    else k1_pay2 (iblk1 V c 0 ⟨n + 1, hn⟩) (accAt1 c n (Nat.lt_of_succ_lt hn)) (iblk1 V c 1 ⟨n + 1, hn⟩)

theorem accAt1_reset (c : Dev nD) (t : Fin cfg1.N) (h : t.val % 4 = 0) :
    accAt1 V c t.val t.isLt = k1_pay2 (iblk1 V c 0 t) (k1_pay1 (F := F)) (iblk1 V c 1 t) := by
  obtain ⟨n, hn⟩ := t
  cases n with
  | zero => rfl
  | succ n => exact if_pos h

theorem accAt1_step (c : Dev nD) (t : Fin cfg1.N) (h : ¬ t.val % 4 = 0) :
    accAt1 V c t.val t.isLt
      = k1_pay2 (iblk1 V c 0 t) (accAt1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-- The kernel's scratch accumulator as a whole memref. -/
abbrev scM1 : Memref sig .tc .vmem S1024x1024 .f32 := Memref.whole cc1_scratch0

/-- The region invariant before position `n`: before the first point every scoped buffer that is no staging buffer of
    this region at some contents and the generator register at some state; afterwards the same with the accumulator at
    what the point before left in it. -/
def PhiS1 (c : Dev nD) : (n : ℕ) → n ≤ cfg1.N → sProp 𝕄
  | 0, _ => Pipeline.ΦA spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

/-- The proof data: the arrays as the region finds them; after the body each input's buffer holds its block and the
    output's the accumulator (consulted only at the points with k = 3, where it is stored and written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

end

end Cert.KernelIdeal.Hand

end
-- ==== Proof.KI.Region1.lean ====
/-
  The second kernel region: its body meets its proof data at every grid point.  A point with k = 0 zeroes the
  accumulator and adds the point's product; a point with k = 1 or 2 adds the point's product onto what the point before
  left; a point with k = 3 does the same and stores the accumulator into the output's block.  The accumulator's contents
  ride in the region invariant from one point to the next.
-/
import proofs.«138301_j20289425506440_1_alg».proof.Proof.KI.Data1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block access, however they are spelt. -/
theorem r1_hz : (![0, 0] : Fin 2 → Nat) = fun _ => 0 := by
  funext a; fin_cases a <;> rfl

/-- A store through the whole-block rectangle at zero offsets, made last, reads back as its payload, whatever the
    buffer held and whatever was stored before: the one piece covers every index. -/
theorem r1_read_last {sg : RefSig} {κ : Kind} {sp : Space} {Val : EltTy → Type} [∀ e, Nonempty (Val e)] {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- The condition of the body's first conditional: the innermost coordinate is zero. -/
abbrev r1_cond0 (i : grid1.Coords) : Prop :=
  (Scalar.cmpi .ne (Scalar.extui (Scalar.cmpi .eq (BitVec.ofNat 32 (i 2).val) 0#32)) 0#32) = 1#1
/-- It holds at the points ≡ 0 (mod 4). -/
theorem r1_hcond0 : ∀ t : Fin cfg1.N, r1_cond0 (grid1.coords t) ↔ t.val % 4 = 0 :=
  (by decide +kernel : ∀ t : Fin grid1.N, r1_cond0 (grid1.coords t) ↔ t.val % 4 = 0)

/-- The condition of the body's second conditional: the innermost coordinate is three. -/
abbrev r1_cond1 (i : grid1.Coords) : Prop := k1_cond2 i = 1#1
/-- It holds at the points ≡ 3 (mod 4). -/
theorem r1_hcond1 : ∀ t : Fin cfg1.N, r1_cond1 (grid1.coords t) ↔ t.val % 4 = 3 :=
  (by decide +kernel : ∀ t : Fin grid1.N, r1_cond1 (grid1.coords t) ↔ t.val % 4 = 3)

/-- The inputs' windows are never idle. -/
theorem r1_live0 : ∀ t : Fin cfg1.N, cfg1.idle 0 (grid1.coords t) = false := by decide +kernel
theorem r1_live1 : ∀ t : Fin cfg1.N, cfg1.idle 1 (grid1.coords t) = false := by decide +kernel
/-- The output's window is idle, and not written back, where the innermost coordinate is not three; live where it is. -/
theorem r1_idle2 : ∀ t : Fin cfg1.N, ¬r1_cond1 (grid1.coords t) → cfg1.idle 2 (grid1.coords t) = true := by decide +kernel
theorem r1_noFlush2 : ∀ t : Fin cfg1.N, ¬r1_cond1 (grid1.coords t) → (cfg1.win 2).flush t = false := by decide +kernel
theorem r1_live2 : ∀ t : Fin cfg1.N, r1_cond1 (grid1.coords t) → cfg1.idle 2 (grid1.coords t) = false := by decide +kernel

section Triples

variable (c : Dev nD) (E : Set ℕ) (i : grid1.Coords)
  (arg3 : Memref sig .tc .vmem S1024x1024 .f32) (harg3 : arg3.IsWhole)
  (arg4 : Memref sig .tc .vmem S1024x1024 .bf16) (harg4 : arg4.IsWhole)
  (arg5 : Memref sig .tc .vmem S1024x1024 .f32) (harg5 : arg5.IsWhole)
  (arg6 : Memref sig .tc .vmem S1024x1024 .f32) (harg6 : arg6.IsWhole)

set_option maxHeartbeats 1000000 in
/-- The body where the innermost coordinate is zero: the accumulator, found at anything, is zeroed and the product
    of the two input blocks added to it; the output's buffer is not touched. -/
theorem r1_kernel_A (hc0 : r1_cond0 i) (hc1 : ¬r1_cond1 i)
    (x : Vec F S1024x1024 .f32) (w : Vec F S1024x1024 .bf16) (K : PUnit → sProp 𝕄) :
    iprop(owns (c : Thread nD τ) arg3 fullShare x ∗ owns (c : Thread nD τ) arg4 fullShare w ∗ (∃ d, owns (c : Thread nD τ) arg6 fullShare d)
        ∗ (iprop(owns (c : Thread nD τ) arg3 fullShare x ∗ owns (c : Thread nD τ) arg4 fullShare w
            ∗ owns (c : Thread nD τ) arg6 fullShare (k1_pay2 x (k1_pay1 (F := F)) w)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  refine (r1_read_last (S := S1024x1024) _ _ r1_hz _ _ _).trans ?_
  simp only [View.readAt_eq_ld, harg3.read_unread, harg4.read_unread,
    View.readCov_unit_zero (S := S1024x1024) _ r1_hz, View.ld_unit_zero (S := S1024x1024) r1_hz]

set_option maxHeartbeats 1000000 in
/-- The body where the innermost coordinate is one or two: the product of the two input blocks is added to the
    accumulator; the output's buffer is not touched. -/
theorem r1_kernel_B (hc0 : ¬r1_cond0 i) (hc1 : ¬r1_cond1 i)
    (x : Vec F S1024x1024 .f32) (w : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg6 fullShare s
        ∗ (iprop(owns (c : Thread nD τ) arg3 fullShare x ∗ owns (c : Thread nD τ) arg4 fullShare w
            ∗ owns (c : Thread nD τ) arg6 fullShare (k1_pay2 x s w)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS
  ipureintro
  sl_unfold_run_names
  refine (r1_read_last (S := S1024x1024) _ _ r1_hz _ _ _).trans ?_
  simp only [View.readAt_eq_ld, harg3.read_unread, harg4.read_unread, harg6.read_unread,
    View.readCov_unit_zero (S := S1024x1024) _ r1_hz, View.ld_unit_zero (S := S1024x1024) r1_hz]

set_option maxHeartbeats 1000000 in
/-- The body where the innermost coordinate is three: the product of the two input blocks is added to the
    accumulator, and the accumulator is stored into the output's buffer, found at anything. -/
theorem r1_kernel_C (hc0 : ¬r1_cond0 i) (hc1 : r1_cond1 i)
    (x : Vec F S1024x1024 .f32) (w : Vec F S1024x1024 .bf16) (s : Vec F S1024x1024 .f32) (K : PUnit → sProp 𝕄) :
    iprop(owns (c : Thread nD τ) arg3 fullShare x ∗ owns (c : Thread nD τ) arg4 fullShare w ∗ (∃ d, owns (c : Thread nD τ) arg5 fullShare d)
        ∗ owns (c : Thread nD τ) arg6 fullShare s
        ∗ (iprop(owns (c : Thread nD τ) arg3 fullShare x ∗ owns (c : Thread nD τ) arg4 fullShare w
            ∗ owns (c : Thread nD τ) arg5 fullShare (k1_pay2 x s w) ∗ owns (c : Thread nD τ) arg6 fullShare (k1_pay2 x s w)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    refine (r1_read_last (S := S1024x1024) _ _ r1_hz _ _ _).trans ?_
    simp only [View.readAt_eq_ld, harg3.read_unread, harg4.read_unread, harg6.read_unread,
    View.readCov_unit_zero (S := S1024x1024) _ r1_hz, View.ld_unit_zero (S := S1024x1024) r1_hz]
  iexists _; isplitr
  swap; · iexact HS
  ipureintro
  sl_unfold_run_names
  refine (r1_read_last (S := S1024x1024) _ _ r1_hz _ _ _).trans ?_
  simp only [View.readAt_eq_ld, harg3.read_unread, harg4.read_unread, harg6.read_unread,
    View.readCov_unit_zero (S := S1024x1024) _ r1_hz, View.ld_unit_zero (S := S1024x1024) r1_hz]

end Triples

section
variable (V : (c : Dev nD) → (b : Ref sig .tc) → Buf (Elt F) ((c : Thread nD τ).loc b))

/-! ## The invariant, position by position -/

theorem r1_PhiS_zero (c : Dev nD) (n : ℕ) (h : n ≤ cfg1.N) (hz : n = 0) : PhiS1 V c n h = Pipeline.ΦA spec1 c := by
  subst hz; rfl

/-- After point `n`: the accumulator at that point's contents. -/
theorem r1_PhiS_succ (c : Dev nD) (n : ℕ) (hn : n < cfg1.N) :
    PhiS1 V c (n + 1) hn = iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r)) := rfl

/-- Before a point that is not the first: the accumulator at what the point before left. -/
theorem r1_PhiS_pos (c : Dev nD) (n : ℕ) (h : n ≤ cfg1.N) (hz : n ≠ 0) :
    PhiS1 V c n h = iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The invariant at a point's start, restated at the point's position. -/
theorem r1_PhiS_castSucc (c : Dev nD) (t : Fin cfg1.N) :
    (dat1 V c).Φ t.castSucc = PhiS1 V c t.val (Nat.le_of_lt t.isLt) := by
  dsimp only [dat1]; simp only [Fin.coe_castSucc]

/-- What the launch hands the region, with the accumulator set apart from the other scoped buffers and owned as a
    whole memref at some contents. -/
theorem r1_PhiA_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, scM1, owns_whole]; try rfl

/-! ## The inputs' staging buffers hold their blocks -/

theorem r1_before0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem r1_before1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem r1_before0 (c : Dev nD) (t : Fin cfg1.N) (d) : (dat1 V c).before 0 t d = iblk1 V c 0 t :=
  r1_before0_of V (dat1 V c) (A_eq1 V c 0) (after1_0 V c) t d
theorem r1_before1 (c : Dev nD) (t : Fin cfg1.N) (d) : (dat1 V c).before 1 t d = iblk1 V c 1 t :=
  r1_before1_of V (dat1 V c) (A_eq1 V c 1) (after1_1 V c) t d

/-! ## The body obligation, at a generic point -/

/-- What the body is called with at point `t`, the windows one by one, -/
def r1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def r1_bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point.  The inputs' buffers hold their blocks; the innermost coordinate says which of the three
    cases the point is in.  The invariant hands the body the accumulator — at anything before the first point, at what
    the point before left afterwards — and takes it back at this point's contents; the other scoped buffers, the
    generator register and what the core owes pass through untouched; the output's buffer is handed back as found
    where the innermost coordinate is not three. -/
theorem r1_sound_body (c : Dev nD) (t : Fin cfg1.N) :
    r1_bodyPre V c t ⊢ wp frame (wpE (defs₀ (F := F)) Variants.none c none) Set.univ (bodyAt1 t) (fun _ => r1_bodyPost V c t) := by
  unfold r1_bodyPre r1_bodyPost bodyAt1
  simp only [r1_before0, r1_before1]
  rw [show (dat1 V c).owesAt () t.succ = (dat1 V c).owesAt () t.castSucc from rfl]
  rw [show (dat1 V c).Φ t.succ = PhiS1 V c (t.val + 1) t.isLt from rfl, r1_PhiS_succ]
  rw [show (dat1 V c).leavesExact 0 t = owns (c : Thread nD τ) (st1_0 t) fullShare ((dat1 V c).after 0 t) from by
    unfold Dat.leavesExact; rw [r1_live0 t], after1_0]
  rw [show (dat1 V c).leavesExact 1 t = owns (c : Thread nD τ) (st1_1 t) fullShare ((dat1 V c).after 1 t) from by
    unfold Dat.leavesExact; rw [r1_live1 t], after1_1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (r1_idle2 t (fun h => h1 ((r1_hcond1 t).mp h))) (r1_noFlush2 t (fun h => h1 ((r1_hcond1 t).mp h)))]
    rw [accAt1_reset V c t h0]
    by_cases hz : t.val = 0
    · rw [r1_PhiS_castSucc V c t, r1_PhiS_zero V c _ _ hz, r1_PhiA_eq]
      iintro ⟨⟨⟨HS, HR⟩, Hg⟩, Ho, ⟨%d0, H0⟩, ⟨%d1, H1⟩, H2⟩
      iapply (r1_kernel_A c Set.univ (grid1.coords t) _ _ _ _ _ _ _ _ ((r1_hcond0 t).mpr h0) (fun h => h1 ((r1_hcond1 t).mp h)) (iblk1 V c 0 t) (iblk1 V c 1 t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [r1_PhiS_castSucc V c t, r1_PhiS_pos V c _ _ hz]
      iintro ⟨⟨HS, HR, Hg⟩, Ho, ⟨%d0, H0⟩, ⟨%d1, H1⟩, H2⟩
      iapply (r1_kernel_A c Set.univ (grid1.coords t) _ _ _ _ _ _ _ _ ((r1_hcond0 t).mpr h0) (fun h => h1 ((r1_hcond1 t).mp h)) (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
  · have hz : t.val ≠ 0 := fun e => h0 (by rw [e])
    rw [accAt1_step V c t h0]
    rw [r1_PhiS_castSucc V c t, r1_PhiS_pos V c _ _ hz]
    by_cases h1 : t.val % 4 = 3
    · rw [show (dat1 V c).leavesExact 2 t = owns (c : Thread nD τ) (st1_2 t) fullShare ((dat1 V c).after 2 t) from by
        unfold Dat.leavesExact; rw [r1_live2 t ((r1_hcond1 t).mpr h1)], after1_2]
      rw [accAt1_step V c t h0]
      iintro ⟨⟨HS, HR, Hg⟩, Ho, ⟨%d0, H0⟩, ⟨%d1, H1⟩, ⟨%d2, H2⟩⟩
      iapply (r1_kernel_C c Set.univ (grid1.coords t) _ _ _ _ _ _ _ _ (fun h => h0 ((r1_hcond0 t).mp h)) ((r1_hcond1 t).mpr h1) (iblk1 V c 0 t) (iblk1 V c 1 t)
        (accAt1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (r1_idle2 t (fun h => h1 ((r1_hcond1 t).mp h))) (r1_noFlush2 t (fun h => h1 ((r1_hcond1 t).mp h)))]
      iintro ⟨⟨HS, HR, Hg⟩, Ho, ⟨%d0, H0⟩, ⟨%d1, H1⟩, H2⟩
      iapply (r1_kernel_B c Set.univ (grid1.coords t) _ _ _ _ _ _ _ _ (fun h => h0 ((r1_hcond0 t).mp h)) (fun h => h1 ((r1_hcond1 t).mp h)) (iblk1 V c 0 t) (iblk1 V c 1 t)
        (accAt1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation of the second region, at every point. -/
theorem body_obligation1 (c : Dev nD) : BodyObligation (dat1 (F := F) V c) (defs₀ (F := F)) Variants.none () Set.univ := fun t => by
  rw [bigSep_W1, bigSep_W1]
  exact r1_sound_body V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, r1_PhiS_zero V c 0 _ rfl]
  try exact Idealize.SL.BI.Entails.refl _

/-- After any point but the first the invariant gives the scoped rest back: the accumulator's contents are forgotten. -/
theorem r1_Phi_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, r1_PhiS_pos V c _ _ ht, r1_PhiA_eq]
  iintro ⟨HS, HR, Hg⟩
  isplitl [HS HR]
  · isplitl [HS]; · iexists _; iexact HS
    iexact HR
  iexact Hg

/-- After the last point the invariant gives the scoped rest back: the accumulator's contents are forgotten. -/
theorem hout1 (c : Dev nD) : (dat1 V c).Φ (Fin.last cfg1.N) ⊢ (Pipeline.ΦA spec1 c : sProp 𝕄) :=
  r1_Phi_out V c _ (by rw [Fin.val_last]; have : cfg1.N = 128 := N_1; omega)

end

end Cert.KernelIdeal.Hand

end
-- ==== Proof.KI.Run.lean ====
/-
  The whole run: the three host operations that make the active spectrum, the first region, the second region, from the
  launch to the return.  Between two items every unscoped buffer is held at named contents: the launch memory, then what
  the host operations leave, then the first region's arrays at what its write-backs leave (the merged weight), then the
  second region's (the result).  Every final memory holds each unscoped buffer at the last of these; read at the
  arguments it is the launch memory, read at the result it is the second region's folded write-backs.
-/
import proofs.«138301_j20289425506440_1_alg».proof.Proof.KI.Region0
import proofs.«138301_j20289425506440_1_alg».proof.Proof.KI.Region1
import proofs.«138301_j20289425506440_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, the result at the second region's write-backs -/

/-- The host operations write only their own three results. -/
theorem W1_of (c : Dev nD) (r : Ref sig .tc) (h : r ∉ hostOps0_W) : W1 m c (Proc.devRef .tc r) = m ((c : Thread nD τ).loc r) :=
  V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (E2 m) c).arrAt_in 0 rfl _).trans (A_eq1 (E2 m) c 0))
    _ = W1 m c (Proc.devRef .tc main_arg0) := W2_of_ne m c main_arg0 (by decide)
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (E1 m) c).arrAt_in 0 rfl _).trans (A_eq0 (E1 m) c 0))
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((dat0 (E1 m) c).arrAt_in 1 rfl _).trans (A_eq0 (E1 m) c 1))
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 2).trans (((dat0 (E1 m) c).arrAt_in 2 rfl _).trans (A_eq0 (E1 m) c 2))
    _ = m ((c : Thread nD τ).loc main_arg4) := W1_of m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of m c main_arg5 (by decide)
/-- The result buffer ends at the second region's folded write-backs. -/
theorem W3_main_v4 (c : Dev nD) : W3 m c (Proc.devRef .tc main_v4) = (dat1 (E2 m) c).arrAt 2 cfg1.N := W3_arr m c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The host operations as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The regions as segments -/

/-- The second region's invariant before its first point, from the scoped rest and the generator register; -/
theorem hin1' (c : Dev nD) :
    (iprop(Pipeline.scopedRest (Ix := Unit) (Name := ℕ) (U := UR sig nD τ) (Lvl := ℕ) (Val := Elt F) spec1 c ∗ ∃ r, prngReg c r) : sProp 𝕄)
      ⊢ (dat1 (E2 m) c).Φ 0 := by
  have h := hin1 (E2 m) c; unfold Pipeline.ΦA at h; exact h
/-- and after its last point, back to them. -/
theorem hout1' (c : Dev nD) :
    (dat1 (E2 m) c).Φ (Fin.last cfg1.N)
      ⊢ (iprop(Pipeline.scopedRest (Ix := Unit) (Name := ℕ) (U := UR sig nD τ) (Lvl := ℕ) (Val := Elt F) spec1 c ∗ ∃ r, prngReg c r) : sProp 𝕄) := by
  have h := hout1 (E2 m) c; unfold Pipeline.ΦA at h; exact h

set_option backward.isDefEq.respectTransparency.types false in
/-- The first region over the thread state: entered from every unscoped buffer at `W1`, left at `W2`. Its arrays are
    split out of the unscoped buffers and put back at the exit contents; the generator register goes into the region
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. The region
    invariant takes the generator register and the scoped rest in at the first point and gives them back after the last,
    the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    iintro ⟨Hp, -, Hr⟩
    iapply (hin1' m c)
    isplitl [Hr]; · iexact Hr
    iexact Hp
  hout c := by
    rw [Pipeline.ownSems0_none, show (pdats m 1 c).Φ (Fin.last _) = (dat1 (E2 m) c).Φ (Fin.last cfg1.N) from rfl]
    have hback := hout1' m c
    iintro HΦ
    ihave Hback := hback $$ HΦ
    icases Hback with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg0 m), .region (reg0 m), .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The run with the result named: the result buffer ends at the second region's folded write-backs, the arguments
    as launched. -/
theorem run_value : θ_run defs (onTc (τ := τ) (main (F := F))) ⟨m, fun _ => 0, ρ⟩ (fun r => ∀ c : Dev nD,
      r.2.mem ((c.tc : Thread nD τ).loc main_v4) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4 (by decide))).trans (W3_main_v4 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.KernelIdeal.Hand

end
-- ==== Proof.Spec.lean ====
/-
  The two programs' common value, over the extended reals.  The merged weight has entry (j, k) equal to the dense
  weight's entry plus twice the sum over the 64 ranks r of (left factor (j, r) times active spectrum r) times right
  factor (r, k); the result has entry (i, j) equal to the sum over k of activation (i, k) times merged weight (j, k).
-/
import Idealize.ShloMosaic.PureOps.Ideal
import Idealize.ShloMosaic.PureOps.Ideal.Laws
import Idealize.ShloMosaic.Lib.ValueIdx

noncomputable section

namespace Cert.Spec

open Idealize.ShloMosaic

/-- The scaling factor: the float literal 2.0 (the same word in both programs; never evaluated). -/
abbrev two : EReal := Ideal.ofBits .f32 0x40000000#32

/-- Entry (j, k) of the merged weight. -/
def weffE (wt : Fin 4096 → Fin 4096 → EReal) (p : Fin 4096 → Fin 64 → EReal) (al : Fin 64 → EReal)
    (q : Fin 64 → Fin 4096 → EReal) (j k : Fin 4096) : EReal :=
  wt j k + two * ∑ r : Fin 64, (p j r * al r) * q r k

/-- Entry (i, j) of the result: the activations' row i against the merged weight's row j. -/
def outE (x : Fin 8192 → Fin 4096 → EReal) (W : Fin 4096 → Fin 4096 → EReal) (i : Fin 8192) (j : Fin 4096) : EReal :=
  ∑ k : Fin 4096, x i k * W j k

end Cert.Spec

end
-- ==== Proof.KI.ValueR0.lean ====
/-
  What the first region leaves in the merged-weight array, over the extended reals: entry (j, k) is the dense weight's
  entry plus twice the rank-64 product.
-/
import proofs.«138301_j20289425506440_1_alg».proof.Proof.KI.Data0
import proofs.«138301_j20289425506440_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The body's payload at a block entry -/

/-- The product's left operand index on its row axis is the result's row. -/
theorem r0_lhs_mm_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- On its rank axis it is the contraction index. -/
theorem r0_lhs_mm_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- The right operand index on its rank axis is the contraction index. -/
theorem r0_rhs_mm_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- On its column axis it is the result's column. -/
theorem r0_rhs_mm_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The block product into the zero accumulator, at entry (r, s): the sum over the 64 ranks of left (r, ρ) times right (ρ, s). -/
theorem r0_mm_apply (a : FVec Ideal S1024x64 .bf16) (b : FVec Ideal S64x1024 .bf16) (r s : Fin 1024) :
    FloatOps.matmul dot_S1024x64_S64x1024_S1024x1024_1_0_0_1_n_n none a b (constant (F := Ideal) S1024x1024 .f32 0x00000000#32) (ix2 r s)
      = ∑ ρ : Fin 64, a (ix2 r ρ) * b (ix2 ρ s) := by
  rw [Ideal.matmul_constant_zero_apply, ← Equiv.sum_comp (ValueIdx.contrEquiv1 dot_S1024x64_S64x1024_S1024x1024_1_0_0_1_n_n 64 rfl rfl).symm]
  refine Finset.sum_congr rfl fun ρ _ => ?_
  have hk := ValueIdx.contrEquiv1_symm_val dot_S1024x64_S64x1024_S1024x1024_1_0_0_1_n_n 64 rfl rfl ρ
  have el : dot_S1024x64_S64x1024_S1024x1024_1_0_0_1_n_n.lhsIdx (ix2 r s) ((ValueIdx.contrEquiv1 dot_S1024x64_S64x1024_S1024x1024_1_0_0_1_n_n 64 rfl rfl).symm ρ) = ix2 r ρ := funext fun ax => Fin.ext (by
    match ax with
    | ⟨0, _⟩ => exact r0_lhs_mm_0 _ _
    | ⟨1, _⟩ => exact (r0_lhs_mm_1 _ _).trans hk)
  have er : dot_S1024x64_S64x1024_S1024x1024_1_0_0_1_n_n.rhsIdx (ix2 r s) ((ValueIdx.contrEquiv1 dot_S1024x64_S64x1024_S1024x1024_1_0_0_1_n_n 64 rfl rfl).symm ρ) = ix2 ρ s := funext fun ax => Fin.ext (by
    match ax with
    | ⟨0, _⟩ => exact (r0_rhs_mm_0 _ _).trans hk
    | ⟨1, _⟩ => exact r0_rhs_mm_1 _ _)
  rw [el, er]

/-- The stored block at entry (r, s): the weight block's entry plus twice the sum over the ranks of
    (left rows (r, ρ) times spectrum ρ) times right columns (ρ, s). -/
theorem r0_pay_apply (al : Vec Ideal S1x64 .f32) (p : Vec Ideal S1024x64 .f32) (q : Vec Ideal S64x1024 .f32)
    (w : Vec Ideal S1024x1024 .f32) (r s : Fin 1024) :
    (k0_pay1 (F := Ideal)) al p q w (ix2 r s)
      = w (ix2 r s) + Cert.Spec.two * ∑ ρ : Fin 64, (p (ix2 r ρ) * al (ix2 (0 : Fin 1) ρ)) * q (ix2 ρ s) := by
  unfold k0_pay1
  have hmm := r0_mm_apply (truncf .bf16 (mulf p (broadcastTo S1024x64 (shapeCast S1x64 al shapeCasts_S1x64_S1x64) broadcasts_S1x64_S1024x64)) bitsLt_bf16_f32)
    (truncf .bf16 q bitsLt_bf16_f32) r s
  refine (congrArg (fun z => w (ix2 r s) + Cert.Spec.two * z) hmm).trans ?_
  refine congrArg (fun z => w (ix2 r s) + Cert.Spec.two * z) (Finset.sum_congr rfl fun ρ _ => ?_)
  show (p (ix2 r ρ) * broadcastTo S1024x64 (shapeCast S1x64 al shapeCasts_S1x64_S1x64) broadcasts_S1x64_S1024x64 (ix2 r ρ)) * q (ix2 ρ s) = _
  rw [shapeCast_self, broadcastTo_1b_ab_apply]

/-! ## The blocks the body reads, as entries of the arrays -/

/-- The block index maps, decided over the grid: the weight's block moves with the stored block on both axes, the left
    rows on the row axis, the right columns on the column axis; the remaining block indices are zero; the stored block's
    indices stay below four. -/
theorem r0_idx_facts : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = 0
    ∧ win0_4.index t (0 : Fin 2) ≤ 3
    ∧ win0_4.index t (1 : Fin 2) ≤ 3 :=
  (by decide +kernel : ∀ t : Fin grid0.N, _)

/-- Every pair of block indices below four is some point's. -/
theorem r0_idx_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

section
variable (V : (c : Dev nD) → (b : Ref sig .tc) → Buf (Elt Ideal) ((c : Thread nD τ).loc b))

/-- The weight block at (r, s) is the dense weight at the stored block's offsets plus (r, s). -/
theorem iblk0_0_apply (c : Dev nD) (t : Fin cfg0.N) (r s : Fin 1024) (a b : Fin 4096)
    (ha : a.val = win0_4.index t (0 : Fin 2) * 1024 + r.val) (hb : b.val = win0_4.index t (1 : Fin 2) * 1024 + s.val) :
    iblk0 V c 0 t (ix2 r s) = V c main_arg1 (ix2 a b) := by
  obtain ⟨e0, e1, -⟩ := r0_idx_facts t
  show V c main_arg1 (((cfg0.win 0).blk t).view.emb (ix2 r s)) = V c main_arg1 (ix2 a b)
  refine congrArg (V c main_arg1) (funext fun ax => Fin.ext ?_)
  match ax with
  | ⟨0, _⟩ => show win0_0.index t (0 : Fin 2) * 1024 + 1 * r.val = a.val; omega
  | ⟨1, _⟩ => show win0_0.index t (1 : Fin 2) * 1024 + 1 * s.val = b.val; omega

/-- The left rows' block at (r, ρ) is the left factor at the stored block's row offset plus r, column ρ. -/
theorem iblk0_1_apply (c : Dev nD) (t : Fin cfg0.N) (r : Fin 1024) (ρ : Fin 64) (a : Fin 4096)
    (ha : a.val = win0_4.index t (0 : Fin 2) * 1024 + r.val) :
    iblk0 V c 1 t (ix2 r ρ) = V c main_arg2 (ix2 a ρ) := by
  obtain ⟨-, -, e2, e3, -⟩ := r0_idx_facts t
  show V c main_arg2 (((cfg0.win 1).blk t).view.emb (ix2 r ρ)) = V c main_arg2 (ix2 a ρ)
  refine congrArg (V c main_arg2) (funext fun ax => Fin.ext ?_)
  match ax with
  | ⟨0, _⟩ => show win0_1.index t (0 : Fin 2) * 1024 + 1 * r.val = a.val; omega
  | ⟨1, _⟩ => show win0_1.index t (1 : Fin 2) * 64 + 1 * ρ.val = ρ.val; omega

/-- The right columns' block at (ρ, s) is the right factor at row ρ, the stored block's column offset plus s. -/
theorem iblk0_2_apply (c : Dev nD) (t : Fin cfg0.N) (ρ : Fin 64) (s : Fin 1024) (b : Fin 4096)
    (hb : b.val = win0_4.index t (1 : Fin 2) * 1024 + s.val) :
    iblk0 V c 2 t (ix2 ρ s) = V c main_arg4 (ix2 ρ b) := by
  obtain ⟨-, -, -, -, e4, e5, -⟩ := r0_idx_facts t
  show V c main_arg4 (((cfg0.win 2).blk t).view.emb (ix2 ρ s)) = V c main_arg4 (ix2 ρ b)
  refine congrArg (V c main_arg4) (funext fun ax => Fin.ext ?_)
  match ax with
  | ⟨0, _⟩ => show win0_2.index t (0 : Fin 2) * 64 + 1 * ρ.val = ρ.val; omega
  | ⟨1, _⟩ => show win0_2.index t (1 : Fin 2) * 1024 + 1 * s.val = b.val; omega

/-- The spectrum's block is the whole one-row array. -/
theorem iblk0_3_apply (c : Dev nD) (t : Fin cfg0.N) (ρ : Fin 64) :
    iblk0 V c 3 t (ix2 (0 : Fin 1) ρ) = V c main_v2 (ix2 (0 : Fin 1) ρ) := by
  obtain ⟨-, -, -, -, -, -, e6, e7, -⟩ := r0_idx_facts t
  show V c main_v2 (((cfg0.win 3).blk t).view.emb (ix2 (0 : Fin 1) ρ)) = V c main_v2 (ix2 (0 : Fin 1) ρ)
  refine congrArg (V c main_v2) (funext fun ax => Fin.ext ?_)
  match ax with
  | ⟨0, _⟩ => show win0_3.index t (0 : Fin 2) * 1 + 1 * 0 = 0; omega
  | ⟨1, _⟩ => show win0_3.index t (1 : Fin 2) * 64 + 1 * ρ.val = ρ.val; omega

end

/-! ## From the stored blocks to the array -/

section
variable (V : (c : Dev nD) → (b : Ref sig .tc) → Buf (Elt Ideal) ((c : Thread nD τ).loc b))

/-- The merged weight as one function of the arrays the region finds: at index i, the dense weight's entry plus twice
    the rank-64 product's. -/
def weffG (c : Dev nD) : Vec Ideal S4096x4096 .bf16 := fun i =>
  Cert.Spec.weffE (fun a b => V c main_arg1 (ix2 a b)) (fun a r => V c main_arg2 (ix2 a r))
    (fun r => V c main_v2 (ix2 (0 : Fin 1) r)) (fun r b => V c main_arg4 (ix2 r b)) (i 0) (i 1)

/-- What point t writes back, at block entry (r, s), is the merged weight at the array index under that entry. -/
theorem r0_flushed_apply (c : Dev nD) (t : Fin cfg0.N) (r s : Fin 1024) :
    (dat0 (F := Ideal) V c).flushed 4 t (ix2 r s) = weffG V c (((cfg0.win 4).blk t).view.emb (ix2 r s)) := by
  have h0 : ((((cfg0.win 4).blk t).view.emb (ix2 r s)) 0).val = win0_4.index t (0 : Fin 2) * 1024 + r.val := by
    show win0_4.index t (0 : Fin 2) * 1024 + 1 * r.val = _; omega
  have h1 : ((((cfg0.win 4).blk t).view.emb (ix2 r s)) 1).val = win0_4.index t (1 : Fin 2) * 1024 + s.val := by
    show win0_4.index t (1 : Fin 2) * 1024 + 1 * s.val = _; omega
  show (k0_pay1 (F := Ideal)) (iblk0 V c 3 t) (iblk0 V c 1 t) (iblk0 V c 2 t) (iblk0 V c 0 t) (ix2 r s) = _
  refine (r0_pay_apply _ _ _ _ r s).trans ?_
  show _ = Cert.Spec.weffE _ _ _ _ _ _
  unfold Cert.Spec.weffE
  refine congrArg₂ (fun x y : EReal => x + Cert.Spec.two * y) (iblk0_0_apply V c t r s _ _ h0 h1)
    (Finset.sum_congr rfl fun ρ _ => ?_)
  rw [iblk0_1_apply V c t r ρ _ h0, iblk0_2_apply V c t ρ s _ h1, iblk0_3_apply V c t ρ]

/-- What point t writes back is block t of the merged weight. -/
theorem r0_flushed_eq (c : Dev nD) (t : Fin cfg0.N) :
    (dat0 (F := Ideal) V c).flushed 4 t = ((cfg0.win 4).blk t).view.read (Elt Ideal) (weffG V c) := by
  funext y
  obtain ⟨r, s, rfl⟩ : ∃ (r s : Fin 1024), y = ix2 r s := ⟨y 0, y 1, @eq_ix2 1024 1024 y⟩
  exact r0_flushed_apply V c t r s

end

/-- An index of the array is under point t's block iff each coordinate is in the block's range on its axis. -/
theorem r0_mem_blk (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the array is under some point's block: entry (j, k) under the point with block indices (j / 1024, k / 1024). -/
theorem r0_cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := r0_idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [r0_mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

variable (V : (c : Dev nD) → (b : Ref sig .tc) → Buf (Elt Ideal) ((c : Thread nD τ).loc b))

/-- After the last point the merged-weight array is the merged weight of the arrays the region found. -/
theorem r0_arr_final (c : Dev nD) : (dat0 (F := Ideal) V c).arrAt 4 cfg0.N = weffG V c :=
  (dat0 (F := Ideal) V c).arrAt_eq_of_cover 4 (weffG V c) (fun t _ => r0_flushed_eq V c t) r0_cover

/-- After the last point the merged-weight array holds `Spec.weffE` of the region-entry contents of the dense weight,
    the left factor, the active spectrum (its one row) and the right factor. -/
theorem weff_final (c : Dev nD) (j k : Fin 4096) :
    (dat0 (F := Ideal) V c).arrAt 4 cfg0.N (ix2 j k)
      = Cert.Spec.weffE (fun a b => V c main_arg1 (ix2 a b)) (fun a r => V c main_arg2 (ix2 a r))
          (fun r => V c main_v2 (ix2 (0 : Fin 1) r)) (fun r b => V c main_arg4 (ix2 r b)) j k :=
  congrFun (r0_arr_final V c) (ix2 j k)

end Cert.KernelIdeal.Hand

end
-- ==== Proof.KI.ValueR1.lean ====
/-
  What the second region leaves in the result array, over the extended reals: entry (i, j) is the sum over the whole
  contracted axis of activation (i, k) times merged weight (j, k) — the four k-blocks' partial sums added in order onto
  zero are the one sum, addition of extended reals being commutative and associative.
-/
import proofs.«138301_j20289425506440_1_alg».proof.Proof.KI.Data1
import proofs.«138301_j20289425506440_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The block product at an entry -/

/-- The left operand's row coordinate is the result's row coordinate. -/
theorem lhs_blk_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column coordinate is the contraction position. -/
theorem lhs_blk_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
/-- The right operand's row coordinate is the result's column coordinate. -/
theorem rhs_blk_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column coordinate is the contraction position. -/
theorem rhs_blk_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The product of two blocks into the zero block, at entry (r, q): row r of the left block against row q of the right
    block. -/
theorem blk_matmul_apply (x : FVec Ideal S1024x1024 .bf16) (w : FVec Ideal S1024x1024 .bf16) (r q : Fin 1024) :
    matmul (F := Ideal) dot_S1024x1024_S1024x1024_S1024x1024_1_1_0_0_n_n none x w (constant (F := Ideal) S1024x1024 .f32 0x00000000#32) (ix2 r q)
      = ∑ kk : Fin 1024, x (ix2 r kk) * w (ix2 q kk) := by
  refine (Ideal.matmul_constant_zero_apply dot_S1024x1024_S1024x1024_S1024x1024_1_1_0_0_n_n none x w (ix2 r q)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r q) ((ValueIdx.contrEquiv1 dot_S1024x1024_S1024x1024_S1024x1024_1_1_0_0_n_n 1024 rfl rfl).symm k) = ix2 r k := funext fun a => Fin.ext (by
    match a with
    | ⟨0, _⟩ => exact lhs_blk_0 _ _
    | ⟨1, _⟩ => exact (lhs_blk_1 _ _).trans hk)
  have er : dot_S1024x1024_S1024x1024_S1024x1024_1_1_0_0_n_n.rhsIdx (ix2 r q) ((ValueIdx.contrEquiv1 dot_S1024x1024_S1024x1024_S1024x1024_1_1_0_0_n_n 1024 rfl rfl).symm k) = ix2 q k := funext fun a => Fin.ext (by
    match a with
    | ⟨0, _⟩ => exact rhs_blk_0 _ _
    | ⟨1, _⟩ => exact (rhs_blk_1 _ _).trans hk)
  rw [el, er]

/-- One accumulation step at entry (r, q): what was there plus the block product. -/
theorem pay2_apply (x : Vec Ideal S1024x1024 .f32) (s : Vec Ideal S1024x1024 .f32) (w : Vec Ideal S1024x1024 .bf16) (r q : Fin 1024) :
    k1_pay2 (F := Ideal) x s w (ix2 r q) = s (ix2 r q) + ∑ kk : Fin 1024, x (ix2 r kk) * w (ix2 q kk) := by
  unfold k1_pay2
  rw [shapeCast_self]
  refine (addf_apply _ _ _).trans ?_
  rw [shapeCast_self]
  refine congrArg (s (ix2 r q) + ·) ?_
  exact blk_matmul_apply _ _ r q

/-- The reset value is the zero block. -/
theorem pay1_apply (r q : Fin 1024) : k1_pay1 (F := Ideal) (ix2 r q) = 0 := by
  unfold k1_pay1
  rw [shapeCast_self]
  exact Ideal.ofBits_zero_f32

variable (V : (c : Dev nD) → (b : Ref sig .tc) → Buf (Elt Ideal) ((c : Thread nD τ).loc b))

/-! ## The two arrays by natural coordinates, and the blocks read off them -/

/-- The activations at natural coordinates (zero outside the array; never read there). -/
def xN (c : Dev nD) (a b : ℕ) : EReal :=
  if h : a < 8192 ∧ b < 4096 then V c main_arg0 (ix2 (⟨a, h.1⟩ : Fin 8192) (⟨b, h.2⟩ : Fin 4096)) else 0

/-- The merged weight at natural coordinates (zero outside the array; never read there). -/
def wN (c : Dev nD) (a b : ℕ) : EReal :=
  if h : a < 4096 ∧ b < 4096 then V c main_v3 (ix2 (⟨a, h.1⟩ : Fin 4096) (⟨b, h.2⟩ : Fin 4096)) else 0

theorem xN_val (c : Dev nD) (a : Fin 8192) (b : Fin 4096) : xN V c a.val b.val = V c main_arg0 (ix2 a b) := by
  unfold xN; rw [dif_pos ⟨a.isLt, b.isLt⟩]

theorem wN_val (c : Dev nD) (a : Fin 4096) (b : Fin 4096) : wN V c a.val b.val = V c main_v3 (ix2 a b) := by
  unfold wN; rw [dif_pos ⟨a.isLt, b.isLt⟩]

/-- The three windows' block indices at a point, in closed form: the point is 16·i + 4·j + k. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4)

/-- The activations' block at a point, as a vector of its literal type. -/
abbrev xblk (c : Dev nD) (t : Fin cfg1.N) : Vec Ideal S1024x1024 .f32 := iblk1 V c 0 t
/-- The merged weight's block at a point, as a vector of its literal type. -/
abbrev wblk (c : Dev nD) (t : Fin cfg1.N) : Vec Ideal S1024x1024 .bf16 := iblk1 V c 1 t

/-- Entry (r, kk) of the activations' block at point t is the array's entry (1024·(t/16) + r, 1024·(t%4) + kk). -/
theorem xblk_apply (c : Dev nD) (t : Fin cfg1.N) (r kk : Fin 1024) :
    xblk V c t (ix2 r kk) = xN V c (1024 * (t.val / 16) + r.val) (1024 * (t.val % 4) + kk.val) := by
  have hN : cfg1.N = 128 := N_1
  have ht := t.isLt
  obtain ⟨e0, e1, -, -, -, -⟩ := idx_facts1 t
  have hr := r.isLt
  have hk := kk.isLt
  have ha : 1024 * (t.val / 16) + r.val < 8192 := by omega
  have hb : 1024 * (t.val % 4) + kk.val < 4096 := by omega
  unfold xN
  rw [dif_pos ⟨ha, hb⟩]
  show V c main_arg0 (((cfg1.win 0).blk t).view.emb (ix2 r kk)) = _
  congr 1
  funext a
  apply Fin.ext
  match a with
  | ⟨0, _⟩ => show win1_0.index t (0 : Fin 2) * 1024 + 1 * r.val = 1024 * (t.val / 16) + r.val; omega
  | ⟨1, _⟩ => show win1_0.index t (1 : Fin 2) * 1024 + 1 * kk.val = 1024 * (t.val % 4) + kk.val; omega

/-- Entry (q, kk) of the merged weight's block at point t is the array's entry (1024·(t/4%4) + q, 1024·(t%4) + kk). -/
theorem wblk_apply (c : Dev nD) (t : Fin cfg1.N) (q kk : Fin 1024) :
    wblk V c t (ix2 q kk) = wN V c (1024 * (t.val / 4 % 4) + q.val) (1024 * (t.val % 4) + kk.val) := by
  have hN : cfg1.N = 128 := N_1
  have ht := t.isLt
  obtain ⟨-, -, e0, e1, -, -⟩ := idx_facts1 t
  have hq := q.isLt
  have hk := kk.isLt
  have ha : 1024 * (t.val / 4 % 4) + q.val < 4096 := by omega
  have hb : 1024 * (t.val % 4) + kk.val < 4096 := by omega
  unfold wN
  rw [dif_pos ⟨ha, hb⟩]
  show V c main_v3 (((cfg1.win 1).blk t).view.emb (ix2 q kk)) = _
  congr 1
  funext a
  apply Fin.ext
  match a with
  | ⟨0, _⟩ => show win1_1.index t (0 : Fin 2) * 1024 + 1 * q.val = 1024 * (t.val / 4 % 4) + q.val; omega
  | ⟨1, _⟩ => show win1_1.index t (1 : Fin 2) * 1024 + 1 * kk.val = 1024 * (t.val % 4) + kk.val; omega

/-! ## The accumulator at a point, entry by entry -/

/-- Point n's addend at entry (r, q): the activations' row against the merged weight's row over the point's k-block. -/
def term1 (c : Dev nD) (n : ℕ) (r q : Fin 1024) : EReal :=
  ∑ kk : Fin 1024, xN V c (1024 * (n / 16) + r.val) (1024 * (n % 4) + kk.val)
    * wN V c (1024 * (n / 4 % 4) + q.val) (1024 * (n % 4) + kk.val)

/-- The product of the two blocks at a point, at entry (r, q), is the point's addend. -/
theorem blk_term (c : Dev nD) (t : Fin cfg1.N) (r q : Fin 1024) :
    (∑ kk : Fin 1024, xblk V c t (ix2 r kk) * wblk V c t (ix2 q kk)) = term1 V c t.val r q := by
  unfold term1
  refine Finset.sum_congr rfl fun kk _ => ?_
  rw [xblk_apply V c t r kk, wblk_apply V c t q kk]

/-- At a point with k = 0 the accumulator is zero plus the point's addend. -/
theorem acc_reset_apply (c : Dev nD) (n : ℕ) (hn : n < cfg1.N) (h : n % 4 = 0) (r q : Fin 1024) :
    accAt1 V c n hn (ix2 r q) = 0 + term1 V c n r q := by
  refine (congrFun (accAt1_reset V c ⟨n, hn⟩ h) (ix2 r q)).trans ?_
  refine (pay2_apply (xblk V c ⟨n, hn⟩) (k1_pay1 (F := Ideal)) (wblk V c ⟨n, hn⟩) r q).trans ?_
  rw [pay1_apply r q, blk_term V c ⟨n, hn⟩ r q]

/-- At any other point it is what the point before left plus the point's addend. -/
theorem acc_step_apply (c : Dev nD) (n : ℕ) (hn : n + 1 < cfg1.N) (h : ¬ (n + 1) % 4 = 0) (r q : Fin 1024) :
    accAt1 V c (n + 1) hn (ix2 r q) = accAt1 V c n (Nat.lt_of_succ_lt hn) (ix2 r q) + term1 V c (n + 1) r q := by
  refine (congrFun (accAt1_step V c ⟨n + 1, hn⟩ h) (ix2 r q)).trans ?_
  refine (pay2_apply (xblk V c ⟨n + 1, hn⟩) (accAt1 V c n (Nat.lt_of_succ_lt hn)) (wblk V c ⟨n + 1, hn⟩) r q).trans ?_
  rw [blk_term V c ⟨n + 1, hn⟩ r q]

/-- At the last point of a run of four the accumulator is the four addends added in order onto zero. -/
theorem acc_flush_apply (c : Dev nD) (b : ℕ) (hb : b + 3 < cfg1.N) (h0 : b % 4 = 0) (r q : Fin 1024) :
    accAt1 V c (b + 3) hb (ix2 r q)
      = (((0 + term1 V c b r q) + term1 V c (b + 1) r q) + term1 V c (b + 2) r q) + term1 V c (b + 3) r q := by
  rw [acc_step_apply V c (b + 2) hb (by omega) r q, acc_step_apply V c (b + 1) (Nat.lt_of_succ_lt hb) (by omega) r q,
    acc_step_apply V c b (Nat.lt_of_succ_lt (Nat.lt_of_succ_lt hb)) (by omega) r q,
    acc_reset_apply V c b (Nat.lt_of_succ_lt (Nat.lt_of_succ_lt (Nat.lt_of_succ_lt hb))) h0 r q]

/-! ## Four block sums are the whole sum -/

/-- A sum over 4096 positions is the sum of its four consecutive blocks of 1024, added in order onto zero. -/
theorem sum_four_blocks (f : ℕ → EReal) :
    (((0 + ∑ kk : Fin 1024, f (1024 * 0 + kk.val)) + ∑ kk : Fin 1024, f (1024 * 1 + kk.val))
        + ∑ kk : Fin 1024, f (1024 * 2 + kk.val)) + ∑ kk : Fin 1024, f (1024 * 3 + kk.val)
      = ∑ k : Fin 4096, f k.val := by
  have e : (∑ k : Fin 4096, f k.val) = ∑ p : Fin 4 × Fin 1024, f (1024 * p.1.val + p.2.val) := by
    refine (Fintype.sum_equiv (finProdFinEquiv (m := 4) (n := 1024)) (fun p => f (1024 * p.1.val + p.2.val))
      (fun k : Fin 4096 => f k.val) fun p => ?_).symm
    refine congrArg f ?_
    show 1024 * p.1.val + p.2.val = p.2.val + 1024 * p.1.val
    omega
  rw [e, Fintype.sum_prod_type, Fin.sum_univ_four, zero_add]
  rfl

/-! ## From the blocks to the array -/

/-- What the result array ends holding: entry (i, j) is the whole sum over the contracted axis. -/
def G1 (c : Dev nD) : S8192x4096.Idx → EReal :=
  fun idx => ∑ k : Fin 4096, xN V c (idx 0).val k.val * wN V c (idx 1).val k.val

theorem G1_apply (c : Dev nD) (idx : S8192x4096.Idx) (a b : ℕ) (ha : (idx 0).val = a) (hb : (idx 1).val = b) :
    G1 V c idx = ∑ k : Fin 4096, xN V c a k.val * wN V c b k.val := by
  subst ha hb; rfl

/-- A point's addend, once the point's three coordinates are named. -/
theorem term1_eq (c : Dev nD) (n ib jb k : ℕ) (h1 : n / 16 = ib) (h2 : n / 4 % 4 = jb) (h3 : n % 4 = k) (r q : Fin 1024) :
    term1 V c n r q = ∑ kk : Fin 1024, xN V c (1024 * ib + r.val) (1024 * k + kk.val) * wN V c (1024 * jb + q.val) (1024 * k + kk.val) := by
  subst h1 h2 h3; rfl

theorem accAt1_congr (c : Dev nD) (n m : ℕ) (hn : n < cfg1.N) (hm : m < cfg1.N) (e : n = m) :
    accAt1 V c n hn = accAt1 V c m hm := by
  subst e; rfl

/-- What a point with k = 3 writes back is its block of the whole sums. -/
theorem flushed1_eq (c : Dev nD) (t : Fin cfg1.N) (hf : (cfg1.win 2).flush t = true) :
    (dat1 (F := Ideal) V c).flushed 2 t = ((cfg1.win 2).blk t).view.read (Elt Ideal) (G1 V c) := by
  have hN : cfg1.N = 128 := N_1
  have ht := t.isLt
  have h3 : t.val % 4 = 3 := (flush1_2 t).mp hf
  obtain ⟨-, -, -, -, e0, e1⟩ := idx_facts1 t
  funext y
  obtain ⟨r, q, rfl⟩ : ∃ (r q : Fin 1024), y = ix2 r q := ⟨y 0, y 1, eq_ix2 y⟩
  show accAt1 V c t.val t.isLt (ix2 r q) = G1 V c (((cfg1.win 2).blk t).view.emb (ix2 r q))
  have E0 : ((((cfg1.win 2).blk t).view.emb (ix2 r q) : S8192x4096.Idx) 0).val = 1024 * (t.val / 16) + r.val := by
    show win1_2.index t (0 : Fin 2) * 1024 + 1 * r.val = _; omega
  have E1 : ((((cfg1.win 2).blk t).view.emb (ix2 r q) : S8192x4096.Idx) 1).val = 1024 * (t.val / 4 % 4) + q.val := by
    show win1_2.index t (1 : Fin 2) * 1024 + 1 * q.val = _; omega
  rw [G1_apply V c (((cfg1.win 2).blk t).view.emb (ix2 r q)) _ _ E0 E1,
    accAt1_congr V c t.val (t.val - 3 + 3) t.isLt (by omega) (by omega),
    acc_flush_apply V c (t.val - 3) (by omega) (by omega) r q,
    term1_eq V c (t.val - 3) (t.val / 16) (t.val / 4 % 4) 0 (by omega) (by omega) (by omega) r q,
    term1_eq V c (t.val - 3 + 1) (t.val / 16) (t.val / 4 % 4) 1 (by omega) (by omega) (by omega) r q,
    term1_eq V c (t.val - 3 + 2) (t.val / 16) (t.val / 4 % 4) 2 (by omega) (by omega) (by omega) r q,
    term1_eq V c (t.val - 3 + 3) (t.val / 16) (t.val / 4 % 4) 3 (by omega) (by omega) (by omega) r q]
  exact sum_four_blocks fun n => xN V c (1024 * (t.val / 16) + r.val) n * wN V c (1024 * (t.val / 4 % 4) + q.val) n

/-- An entry of the array is in a point's block iff each coordinate is in the block's range on its axis. -/
theorem mem_blk1 (t : Fin cfg1.N) (i : S8192x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v4).slice (win1_2.rect t)).set ↔ _
  rw [View.set_slice_whole, Rect.mem_set_unit]
  exact Iff.rfl

/-- Every entry (i, j) is in the block of the writing point 16·(i/1024) + 4·(j/1024) + 3. -/
theorem cover1 (i : S8192x4096.Idx) :
    ∃ t : Fin cfg1.N, (cfg1.win 2).flush t = true ∧ i ∈ ((cfg1.win 2).blk t).view.set := by
  have hN : cfg1.N = 128 := N_1
  have hi0 : (i 0).val < 8192 := idx2_lt0 i
  have hi1 : (i 1).val < 4096 := idx2_lt1 i
  have hlt : 16 * ((i 0).val / 1024) + 4 * ((i 1).val / 1024) + 3 < cfg1.N := by omega
  obtain ⟨-, -, -, -, e0, e1⟩ := idx_facts1 ⟨16 * ((i 0).val / 1024) + 4 * ((i 1).val / 1024) + 3, hlt⟩
  refine ⟨⟨16 * ((i 0).val / 1024) + 4 * ((i 1).val / 1024) + 3, hlt⟩, (flush1_2 _).mpr ?_, ?_⟩
  · show (16 * ((i 0).val / 1024) + 4 * ((i 1).val / 1024) + 3) % 4 = 3
    omega
  · rw [mem_blk1]
    intro a
    match a with
    | ⟨0, _⟩ =>
      show win1_2.index ⟨16 * ((i 0).val / 1024) + 4 * ((i 1).val / 1024) + 3, hlt⟩ (0 : Fin 2) * 1024 ≤ (i 0).val
        ∧ (i 0).val < win1_2.index ⟨16 * ((i 0).val / 1024) + 4 * ((i 1).val / 1024) + 3, hlt⟩ (0 : Fin 2) * 1024 + 1024
      rw [e0]
      show (16 * ((i 0).val / 1024) + 4 * ((i 1).val / 1024) + 3) / 16 * 1024 ≤ (i 0).val
        ∧ (i 0).val < (16 * ((i 0).val / 1024) + 4 * ((i 1).val / 1024) + 3) / 16 * 1024 + 1024
      omega
    | ⟨1, _⟩ =>
      show win1_2.index ⟨16 * ((i 0).val / 1024) + 4 * ((i 1).val / 1024) + 3, hlt⟩ (1 : Fin 2) * 1024 ≤ (i 1).val
        ∧ (i 1).val < win1_2.index ⟨16 * ((i 0).val / 1024) + 4 * ((i 1).val / 1024) + 3, hlt⟩ (1 : Fin 2) * 1024 + 1024
      rw [e1]
      show (16 * ((i 0).val / 1024) + 4 * ((i 1).val / 1024) + 3) / 4 % 4 * 1024 ≤ (i 1).val
        ∧ (i 1).val < (16 * ((i 0).val / 1024) + 4 * ((i 1).val / 1024) + 3) / 4 % 4 * 1024 + 1024
      omega

/-- So the result array ends holding the whole sums. -/
theorem arr_final1 (c : Dev nD) : (dat1 (F := Ideal) V c).arrAt 2 cfg1.N = G1 V c :=
  (dat1 (F := Ideal) V c).arrAt_eq_of_cover 2 (G1 V c) (flushed1_eq V c) cover1

/-- After the last point the result array holds `Spec.outE` of the region-entry contents of the activations and of the
    merged weight. -/
theorem out_final (c : Dev nD) (i : Fin 8192) (j : Fin 4096) :
    (dat1 (F := Ideal) V c).arrAt 2 cfg1.N (ix2 i j)
      = Cert.Spec.outE (fun a b => V c main_arg0 (ix2 a b)) (fun a b => V c main_v3 (ix2 a b)) i j := by
  refine (congrFun (arr_final1 V c) (ix2 i j)).trans ?_
  refine (G1_apply V c (ix2 i j) i.val j.val rfl rfl).trans ?_
  unfold Cert.Spec.outE
  refine Finset.sum_congr rfl fun k _ => ?_
  rw [xN_val V c i k, wN_val V c j k]

end Cert.KernelIdeal.Hand

end
-- ==== Proof.KI.Bridge.lean ====
/-
  The kernel program's result, over the extended reals, as one function of the launch memory: the second region's
  write-backs are the activations against the merged weight (the four k-blocks' sums being the one sum), the merged
  weight is what the first region's write-backs left, and its spectrum operand is what the host operations made of
  the spectrum and the rank mask — their product, laid out as one row.
-/
import proofs.«138301_j20289425506440_1_alg».proof.Proof.KI.Run
import proofs.«138301_j20289425506440_1_alg».proof.Proof.KI.ValueR0
import proofs.«138301_j20289425506440_1_alg».proof.Proof.KI.ValueR1
import Idealize.ShloMosaic.Lib.StableHlo.Run

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The host operations write no argument: at the first region's entry each argument is as launched. -/
theorem E1_arg (c : Dev nD) (r : Ref sig .tc) (h : r ∉ hostOps0_W) : E1 m c r = m ((c : Thread nD τ).loc r) := W1_of m c r h

/-- The spectrum operand at the first region's entry: the spectrum times the rank mask read as a number, as one row. -/
theorem E1_main_v2 (c : Dev nD) (r : Fin 64) :
    E1 m c main_v2 (ix2 (0 : Fin 1) r)
      = (FloatOps.mulf (F := Ideal) (φ := .f32) (m ((c : Thread nD τ).loc main_arg3) (ix1 r))
          (FloatOps.uitofp (F := Ideal) .f32 (m ((c : Thread nD τ).loc main_arg5) (ix1 r))) : EReal) := by
  have e : (E1 m c main_v2 : S1x64.Idx → EReal)
      = shapeCast S1x64 (mulf (m ((c : Thread nD τ).loc main_arg3)) (uitofp (F := Ideal) .f32 (m ((c : Thread nD τ).loc main_arg5)))) shapeCasts_S64_S1x64 := by
    show StableHlo.after hostOps0 (fun b => m (c, b)) (Proc.devRef .tc main_v2) = _
    after_results
    rfl
  rw [e, shapeCast_addUnit_apply]
  have hi : (fun a : Fin 1 => ix2 (0 : Fin 1) r a.succ) = ix1 r := funext fun a => by
    match a with
    | ⟨0, _⟩ => rfl
  exact (congrArg (mulf (m ((c : Thread nD τ).loc main_arg3)) (uitofp (F := Ideal) .f32 (m ((c : Thread nD τ).loc main_arg5)))) hi).trans rfl

/-- The merged weight at the second region's entry is what the first region's write-backs left. -/
theorem E2_main_v3 (c : Dev nD) : E2 m c main_v3 = (dat0 (F := Ideal) (E1 m) c).arrAt 4 cfg0.N := W2_arr m c 4

/-- The activations at the second region's entry are as launched. -/
theorem E2_main_arg0 (c : Dev nD) : E2 m c main_arg0 = m ((c : Thread nD τ).loc main_arg0) :=
  (W2_of_ne m c main_arg0 (by decide)).trans (W1_of m c main_arg0 (by decide))

/-- Entry (i, j) of the result the kernel program leaves. -/
theorem kernel_value (c : Dev nD) (i : Fin 8192) (j : Fin 4096) :
    (dat1 (F := Ideal) (E2 m) c).arrAt 2 cfg1.N (ix2 i j)
      = Cert.Spec.outE (fun a b => m ((c : Thread nD τ).loc main_arg0) (ix2 a b))
          (Cert.Spec.weffE (fun a b => m ((c : Thread nD τ).loc main_arg1) (ix2 a b)) (fun a r => m ((c : Thread nD τ).loc main_arg2) (ix2 a r))
            (fun r => (FloatOps.mulf (F := Ideal) (φ := .f32) (m ((c : Thread nD τ).loc main_arg3) (ix1 r))
              (FloatOps.uitofp (F := Ideal) .f32 (m ((c : Thread nD τ).loc main_arg5) (ix1 r))) : EReal))
            (fun r b => m ((c : Thread nD τ).loc main_arg4) (ix2 r b))) i j := by
  rw [out_final (E2 m) c i j, E2_main_arg0 m c]
  congr 1
  funext a b
  rw [E2_main_v3 m c, weff_final (E1 m) c a b, E1_arg m c main_arg1 (by decide), E1_arg m c main_arg2 (by decide),
    E1_arg m c main_arg4 (by decide)]
  congr 1
  funext r
  exact E1_main_v2 m c r

end Cert.KernelIdeal.Hand

end
-- ==== Proof.Ref.lean ====
/-
  The reference's result, over the extended reals, read entry by entry: entry (i, j) is the activations' row i against
  row j of the merged weight, the merged weight's entry the dense weight's plus twice the rank-64 product with the
  active spectrum (the spectrum times the rank mask read as 0 or 1).
-/
import proofs.«138301_j20289425506440_1_alg».proof.Proof.Gen.ReferenceIdeal.Run
import proofs.«138301_j20289425506440_1_alg».proof.Proof.Gen.ReferenceIdeal.Read
import proofs.«138301_j20289425506440_1_alg».proof.Proof.Spec
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx

/-- Row i, column k of the activations: the left index of the last contraction at result entry (i, j). -/
theorem lidx10 (i : Fin 8192) (j k : Fin 4096) : lidx_main_v10 (ix2 i j) k = ix2 i k :=
  funext fun a => Fin.ext (by match a with | ⟨0, _⟩ => rfl | ⟨1, _⟩ => rfl)

/-- Row k, column j of the transposed merged weight: the right index of the last contraction at result entry (i, j). -/
theorem ridx10 (i : Fin 8192) (j k : Fin 4096) : ridx_main_v10 (ix2 i j) k = ix2 k j :=
  funext fun a => Fin.ext (by match a with | ⟨0, _⟩ => rfl | ⟨1, _⟩ => rfl)

/-- The transpose reads entry (k, j) at entry (j, k). -/
theorem idx9 (k j : Fin 4096) : idx_main_v9 (ix2 k j) = ix2 j k :=
  funext fun a => Fin.ext (by match a with | ⟨0, _⟩ => rfl | ⟨1, _⟩ => rfl)

/-- Row j, rank r of the scaled left factor: the left index of the rank contraction at entry (j, k). -/
theorem lidx5 (j k : Fin 4096) (r : Fin 64) : lidx_main_v5 (ix2 j k) r = ix2 j r :=
  funext fun a => Fin.ext (by match a with | ⟨0, _⟩ => rfl | ⟨1, _⟩ => rfl)

/-- Rank r, column k of the right factor: the right index of the rank contraction at entry (j, k). -/
theorem ridx5 (j k : Fin 4096) (r : Fin 64) : ridx_main_v5 (ix2 j k) r = ix2 r k :=
  funext fun a => Fin.ext (by match a with | ⟨0, _⟩ => rfl | ⟨1, _⟩ => rfl)

/-- The spectrum broadcast along the rows reads its one row at rank r. -/
theorem idx3 (j : Fin 4096) (r : Fin 64) : idx_main_v3 (ix2 j r) = ix2 (0 : Fin 1) r :=
  funext fun a => Fin.ext (by match a with | ⟨0, _⟩ => rfl | ⟨1, _⟩ => rfl)

/-- The one-row spectrum reads the spectrum at rank r. -/
theorem idx2 (z : Fin 1) (r : Fin 64) : idx_main_v2 (ix2 z r) = ix1 r :=
  funext fun a => Fin.ext (by match a with | ⟨0, _⟩ => rfl)

/-- The merged weight before the transpose, at entry (j, k), is `Spec.weffE`: the dense weight's entry plus twice the
    sum over the ranks of (left factor times active spectrum) times right factor. -/
theorem weff_value (x1 : (⟨S4096x4096, .f32⟩ : BufTy).Contents (Elt Ideal))
    (x2 : (⟨S4096x64, .f32⟩ : BufTy).Contents (Elt Ideal)) (x3 : (⟨S64, .f32⟩ : BufTy).Contents (Elt Ideal))
    (x4 : (⟨S64x4096, .f32⟩ : BufTy).Contents (Elt Ideal)) (x5 : (⟨S64, .i1⟩ : BufTy).Contents (Elt Ideal))
    (j k : Fin 4096) :
    val_main_v8 (F := Ideal) x1 x2 x3 x4 x5 (ix2 j k)
      = Cert.Spec.weffE (fun a b => x1 (ix2 a b)) (fun a r => x2 (ix2 a r))
          (fun r => (FloatOps.mulf (F := Ideal) (φ := .f32) (x3 (ix1 r)) (FloatOps.uitofp (F := Ideal) .f32 (x5 (ix1 r))) : EReal))
          (fun r b => x4 (ix2 r b)) j k := by
  rw [val_main_v8_apply, val_main_v7_apply, val_main_v6_apply, val_main_cst_apply, val_main_v5_apply]
  unfold Cert.Spec.weffE
  simp only [Ideal.addf_def, Ideal.mulf_def, Ideal.ofBits_def]
  congr 2
  refine Finset.sum_congr rfl fun r _ => ?_
  rw [lidx5, ridx5, val_main_v4_apply, val_main_v3_apply, idx3, val_main_v2_apply, idx2, val_main_v1_apply,
    val_main_v0_apply]
  simp only [Ideal.mulf_def]

/-- The reference's last stage at entry (i, j) is `Spec.outE` of the activations and of `Spec.weffE` of the dense
    weight, the left factor, the active spectrum and the right factor. -/
theorem ref_value (x0 : (⟨S8192x4096, .f32⟩ : BufTy).Contents (Elt Ideal)) (x1 : (⟨S4096x4096, .f32⟩ : BufTy).Contents (Elt Ideal))
    (x2 : (⟨S4096x64, .f32⟩ : BufTy).Contents (Elt Ideal)) (x3 : (⟨S64, .f32⟩ : BufTy).Contents (Elt Ideal))
    (x4 : (⟨S64x4096, .f32⟩ : BufTy).Contents (Elt Ideal)) (x5 : (⟨S64, .i1⟩ : BufTy).Contents (Elt Ideal))
    (i : Fin 8192) (j : Fin 4096) :
    val_main_v10 (F := Ideal) x0 x1 x2 x3 x4 x5 (ix2 i j)
      = Cert.Spec.outE (fun a b => x0 (ix2 a b))
          (Cert.Spec.weffE (fun a b => x1 (ix2 a b)) (fun a r => x2 (ix2 a r))
            (fun r => (FloatOps.mulf (F := Ideal) (φ := .f32) (x3 (ix1 r)) (FloatOps.uitofp (F := Ideal) .f32 (x5 (ix1 r))) : EReal)) (fun r b => x4 (ix2 r b))) i j := by
  rw [val_main_v10_apply]
  unfold Cert.Spec.outE
  refine Finset.sum_congr rfl fun k _ => ?_
  rw [lidx10, ridx10, val_main_v9_apply, idx9, weff_value]

end Cert.ReferenceIdeal.Hand

end
-- ==== Proof.lean ====
/-
  The kernel: a rank-64 update merged into a dense 4096 × 4096 weight, W' = W + 2 · (P · diag(λ ∘ mask)) · Q, by one
  tiled kernel, then the activations against the merged weight's transpose, x · W'ᵀ, by a second tiled kernel that
  accumulates over four blocks of the contracted axis.  The reference computes the same two products whole.
  Over the extended reals a change of float format is the identity, so both programs compute, entry by entry,
  Σ_k x(i,k) · (W(j,k) + 2 · Σ_r (P(j,r) · (λ(r) · mask(r))) · Q(r,k)); the kernel's blockwise sum
  (((0 + B₀) + B₁) + B₂) + B₃ is the whole sum because addition of extended reals is commutative and associative
  with zero neutral — no finiteness of the inputs is used.
  The frames: the kernel program's run is taken through its three items (the host operations, the two regions), each
  region's body meeting its proof data at every grid point; the reference's frame is its run with the result dropped.
  The ideal pass rewrote nothing, so the kernel's idealization is its own text.
-/
import proofs.«138301_j20289425506440_1_alg».proof.Defs
import proofs.«138301_j20289425506440_1_alg».proof.Proof.Gen.Kernel
import proofs.«138301_j20289425506440_1_alg».proof.Proof.Gen.KernelIdeal
import proofs.«138301_j20289425506440_1_alg».proof.Proof.Gen.ReferenceIdeal
import proofs.«138301_j20289425506440_1_alg».proof.Proof.Gen.Pre_finite_inputs
import proofs.«138301_j20289425506440_1_alg».proof.Proof.K.Run
import proofs.«138301_j20289425506440_1_alg».proof.Proof.KI.Bridge
import proofs.«138301_j20289425506440_1_alg».proof.Proof.Ref
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program as printed runs to the end, nothing faulting, its arguments unchanged. -/
theorem frame_k : Cert.frame_Kernel := fun m ρ _ => Cert.Kernel.Hand.frame (F := Bits) m ρ

/-- The same of its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result: entry (i, j) of each is
    the activations' row i against row j of the merged weight. -/
theorem algebraic : Cert.algebraic_KernelIdeal_ReferenceIdeal := by
  intro m ρ m' ρ' _ hagree
  refine ⟨fun c => (Cert.KernelIdeal.Hand.dat1 (F := Ideal) (Cert.KernelIdeal.Hand.E2 m) c).arrAt 2 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1,
    (hagree c).2.2.2.2.1, (hagree c).2.2.2.2.2]
  funext idx
  obtain ⟨i, j, rfl⟩ : ∃ (i : Fin 8192) (j : Fin 4096), idx = ix2 i j := ⟨idx 0, idx 1, eq_ix2 idx⟩
  exact (Cert.ReferenceIdeal.Hand.ref_value _ _ _ _ _ _ i j).trans (Cert.KernelIdeal.Hand.kernel_value m c i j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
